-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S64x256x56x56 .f32) (main_arg1 : FVec F S256x256 .f32) (main_arg2 : FVec F S256 .f32) (main_arg3 : FVec F S256x1 .f32) (main_arg4 : FVec F S1 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1 .f32 := Host.absf main_arg3
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg4 main_v13 main_v16
-- ==== Kernel.lean ====
abbrev S64x256x56x56 : Shape := ⟨4, ![64, 256, 56, 56]⟩
abbrev S256x256 : Shape := ⟨2, ![256, 256]⟩
abbrev S256 : Shape := ⟨1, ![256]⟩
abbrev S256x1 : Shape := ⟨2, ![256, 1]⟩
abbrev S1 : Shape := ⟨1, ![1]⟩
abbrev S64x256x3136 : Shape := ⟨3, ![64, 256, 3136]⟩
abbrev S1x1 : Shape := ⟨2, ![1, 1]⟩
abbrev S64x1x1 : Shape := ⟨3, ![64, 1, 1]⟩
abbrev S1x256x3136 : Shape := ⟨3, ![1, 256, 3136]⟩
abbrev S1x1x1 : Shape := ⟨3, ![1, 1, 1]⟩
abbrev S256x3136 : Shape := ⟨2, ![256, 3136]⟩
abbrev S64x1 : Shape := ⟨2, ![64, 1]⟩

abbrev nBuf : Space → Nat
  | .hbm => 10
  | .vmem => 8
  | .smem => 0
  | _ => 0

abbrev bufTy : (tb : Table) → Fin (tcTables nBuf tb) → BufTy
  | .hbm, ⟨0, _⟩ => ⟨S64x256x56x56, .f32⟩
  | .hbm, ⟨1, _⟩ => ⟨S256x256, .f32⟩
  | .hbm, ⟨2, _⟩ => ⟨S256, .f32⟩
  | .hbm, ⟨3, _⟩ => ⟨S256x1, .f32⟩
  | .hbm, ⟨4, _⟩ => ⟨S1, .f32⟩
  | .hbm, ⟨5, _⟩ => ⟨S64x256x3136, .f32⟩
  | .hbm, ⟨6, _⟩ => ⟨S256x1, .f32⟩
  | .hbm, ⟨7, _⟩ => ⟨S1x1, .f32⟩
  | .hbm, ⟨8, _⟩ => ⟨S64x1x1, .f32⟩
  | .hbm, ⟨9, _⟩ => ⟨S64x1, .f32⟩
  | .local _ .vmem, ⟨0, _⟩ => ⟨S1x256x3136, .f32⟩
  | .local _ .vmem, ⟨1, _⟩ => ⟨S1x256x3136, .f32⟩
  | .local _ .vmem, ⟨2, _⟩ => ⟨S256x256, .f32⟩
  | .local _ .vmem, ⟨3, _⟩ => ⟨S256x1, .f32⟩
  | .local _ .vmem, ⟨4, _⟩ => ⟨S256x1, .f32⟩
  | .local _ .vmem, ⟨5, _⟩ => ⟨S1x1, .f32⟩
  | .local _ .vmem, ⟨6, _⟩ => ⟨S1x1x1, .f32⟩
  | .local _ .vmem, ⟨7, _⟩ => ⟨S1x1x1, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64x256x56x56_S64x256x3136 : S64x256x56x56.ShapeCasts S64x256x3136
  shapeCasts_S256_S256x1 : S256.ShapeCasts S256x1
  shapeCasts_S1_S1x1 : S1.ShapeCasts S1x1
  inb_S1x256x3136_S1x256x3136_0_0_0 : ∀ a, (![0, 0, 0] : Fin 3 → Nat) a + S1x256x3136.size a ≤ S1x256x3136.size a
  h_S1x256x3136 : 0 < S1x256x3136.numel
  shapeCasts_S1x256x3136_S256x3136 : S1x256x3136.ShapeCasts S256x3136
  reduces_S256x3136_S256 : S256x3136.Reduces [1] S256
  inb_S256x256_S256x256_0_0 : ∀ a, (![0, 0] : Fin 2 → Nat) a + S256x256.size a ≤ S256x256.size a
  h_S256x256 : 0 < S256x256.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S64x1x1_S64x1 : S64x1x1.ShapeCasts S64x1
  dot_S256x256_S256x1_S256x1_0_0_1_1_n_n_wf : DotDims.WF S256x256 S256x1 S256x1 [0] [0] [1] [1] [] []
  dot_S256x1_S256x1_S1x1_0_0_1_1_n_n_wf : DotDims.WF S256x1 S256x1 S1x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3136.size a ≤ S64x256x3136.size a
  hwx0_0 : ∀ i : grid0.Coords, EltTy.bits .f32 = 32 ∨ (Rect.block (s := S64x256x3136) S1x256x3136.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S64x1x1.size a
  hwx0_5 : ∀ i : grid0.Coords, EltTy.bits .f32 = 32 ∨ (Rect.block (s := S64x1x1) S1x1x1.size (cc0_transform_5 i) (hinb0_5 i)).WholeWords (EltTy.packing .f32)

variable [Facts₀]

def dot_S256x256_S256x1_S256x1_0_0_1_1_n_n : DotDims S256x256 S256x1 S256x1 where
  lhsContracting := [0]
  rhsContracting := [0]
  lhsNonContracting := [1]
  rhsNonContracting := [1]
  lhsBatch := []
  rhsBatch := []
  wf := dot_S256x256_S256x1_S256x1_0_0_1_1_n_n_wf
def dot_S256x1_S256x1_S1x1_0_0_1_1_n_n : DotDims S256x1 S256x1 S1x1 where
  lhsContracting := [0]
  rhsContracting := [0]
  lhsNonContracting := [1]
  rhsNonContracting := [1]
  lhsBatch := []
  rhsBatch := []
  wf := dot_S256x1_S256x1_S1x1_0_0_1_1_n_n_wf

abbrev win0_0 : Pipeline.Window sig grid0 :=
  Pipeline.Window.ofSpec (Memref.whole main_v0) S1x256x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x256x56x56 : Shape := ⟨4, ![64, 256, 56, 56]⟩
abbrev S256x256 : Shape := ⟨2, ![256, 256]⟩
abbrev S256 : Shape := ⟨1, ![256]⟩
abbrev S256x1 : Shape := ⟨2, ![256, 1]⟩
abbrev S1 : Shape := ⟨1, ![1]⟩
abbrev S16384x3136 : Shape := ⟨2, ![16384, 3136]⟩
abbrev S16384x1 : Shape := ⟨2, ![16384, 1]⟩
abbrev S512x2048 : Shape := ⟨2, ![512, 2048]⟩
abbrev S512x1 : Shape := ⟨2, ![512, 1]⟩
abbrev S512 : Shape := ⟨1, ![512]⟩
abbrev S64x256 : Shape := ⟨2, ![64, 256]⟩
abbrev S1x256 : Shape := ⟨2, ![1, 256]⟩
abbrev S1x1 : Shape := ⟨2, ![1, 1]⟩
abbrev S64x1 : Shape := ⟨2, ![64, 1]⟩

abbrev nBuf : Space → Nat
  | .hbm => 11
  | .vmem => 10
  | .smem => 0
  | _ => 0

abbrev bufTy : (tb : Table) → Fin (tcTables nBuf tb) → BufTy
  | .hbm, ⟨0, _⟩ => ⟨S64x256x56x56, .f32⟩
  | .hbm, ⟨1, _⟩ => ⟨S256x256, .f32⟩
  | .hbm, ⟨2, _⟩ => ⟨S256, .f32⟩
  | .hbm, ⟨3, _⟩ => ⟨S256x1, .f32⟩
  | .hbm, ⟨4, _⟩ => ⟨S1, .f32⟩
  | .hbm, ⟨5, _⟩ => ⟨S16384x3136, .f32⟩
  | .hbm, ⟨6, _⟩ => ⟨S16384x1, .f32⟩
  | .hbm, ⟨7, _⟩ => ⟨S64x256, .f32⟩
  | .hbm, ⟨8, _⟩ => ⟨S1x256, .f32⟩
  | .hbm, ⟨9, _⟩ => ⟨S1x1, .f32⟩
  | .hbm, ⟨10, _⟩ => ⟨S64x1, .f32⟩
  | .local _ .vmem, ⟨0, _⟩ => ⟨S512x2048, .f32⟩
  | .local _ .vmem, ⟨1, _⟩ => ⟨S512x2048, .f32⟩
  | .local _ .vmem, ⟨2, _⟩ => ⟨S512x1, .f32⟩
  | .local _ .vmem, ⟨3, _⟩ => ⟨S512x1, .f32⟩
  | .local _ .vmem, ⟨4, _⟩ => ⟨S64x256, .f32⟩
  | .local _ .vmem, ⟨5, _⟩ => ⟨S256x256, .f32⟩
  | .local _ .vmem, ⟨6, _⟩ => ⟨S1x256, .f32⟩
  | .local _ .vmem, ⟨7, _⟩ => ⟨S256x1, .f32⟩
  | .local _ .vmem, ⟨8, _⟩ => ⟨S1x1, .f32⟩
  | .local _ .vmem, ⟨9, _⟩ => ⟨S64x1, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := .none

abbrev stage1_0 : Fin 1 → Memref sig .tc .vmem S64x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S256x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S64x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

class Facts₀ : Prop where
  shapeCasts_S64x256x56x56_S16384x3136 : S64x256x56x56.ShapeCasts S16384x3136
  inb_S512x1_S512x1_0_0 : ∀ a, (![0, 0] : Fin 2 → Nat) a + S512x1.size a ≤ S512x1.size a
  h_S512x1 : 0 < S512x1.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  iota_S512x2048_d1_w32 : S512x2048.Iotas .tc 32 [1]
  shapeCasts_S512x1_S512x1 : S512x1.ShapeCasts S512x1
  reduces_S512x2048_S512 : S512x2048.Reduces [1] S512
  shapeCasts_S512_S512x1 : S512.ShapeCasts S512x1
  shapeCasts_S16384x1_S64x256 : S16384x1.ShapeCasts S64x256
  shapeCasts_S256_S1x256 : S256.ShapeCasts S1x256
  shapeCasts_S1_S1x1 : S1.ShapeCasts S1x1
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S64x256 : S1x256.Broadcasts S64x256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  inb_S64x1_S64x1_0_0 : ∀ a, (![0, 0] : Fin 2 → Nat) a + S64x1.size a ≤ S64x1.size a
  h_S64x1 : 0 < S64x1.numel
  dot_S64x256_S256x256_S64x256_1_0_0_1_n_n_wf : DotDims.WF S64x256 S256x256 S64x256 [1] [0] [0] [1] [] []
  dot_S64x256_S256x1_S64x1_1_0_0_1_n_n_wf : DotDims.WF S64x256 S256x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S512x2048.size a < S16384x3136.size a
  hwx0_0 : ∀ i : grid0.Coords, EltTy.bits .f32 = 32 ∨ (Rect.unit (s := S16384x3136) (fun a => cc0_transform_0 i a * S512x2048.size a) (fun a => (Pipeline.Clip.of (cc0_transform_0 i a) (S512x2048.size a) (S16384x3136.size a)).extent (S512x2048.size a)) fun a => Pipeline.Clip.inb (Pipeline.Clip.ok_of (hstart0_0 i a))).WholeWords (EltTy.packing .f32)
  hwxs0_0 : ∀ i : grid0.Coords, EltTy.bits .f32 = 32 ∨ (Rect.unit (s := S512x2048) (fun _ => 0) (fun a => (Pipeline.Clip.of (cc0_transform_0 i a) (S512x2048.size a) (S16384x3136.size a)).extent (S512x2048.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S16384x1.size a
  hwx0_1 : ∀ i : grid0.Coords, EltTy.bits .f32 = 32 ∨ (Rect.block (s := S16384x1) S512x1.size (cc0_transform_1 i) (hinb0_1 i)).WholeWords (EltTy.packing .f32)
  hstage1_0 : ∀ j, (stage1_0 j).IsWhole
  hstage1_1 : ∀ j, (stage1_1 j).IsWhole
  hstage1_2 : ∀ j, (stage1_2 j).IsWhole
  hstage1_3 : ∀ j, (stage1_3 j).IsWhole
  hstage1_4 : ∀ j, (stage1_4 j).IsWhole
  hstage1_5 : ∀ j, (stage1_5 j).IsWhole

variable [Facts₀]

def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S64x256_S256x1_S64x1_1_0_0_1_n_n : DotDims S64x256 S256x1 S64x1 where
  lhsContracting := [1]
  rhsContracting := [0]
  lhsNonContracting := [0]
  rhsNonContracting := [1]
  lhsBatch := []
  rhsBatch := []
  wf := dot_S64x256_S256x1_S64x1_1_0_0_1_n_n_wf

abbrev win0_0 : Pipeline.Window sig grid0 :=
  Pipeline.Window.ofSpecClip (Memref.whole main_v0) S512x2048.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v1) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.whole (Memref.whole main_v2) false false (stage1_0 0) (sem1_0 0) (Memref.isWhole_whole _) (hstage1_0 0)

abbrev win1_1 : Pipeline.Window sig grid1 :=
  Pipeline.Window.whole (Memref.whole main_arg1) false false (stage1_1 0) (sem1_1 0) (Memref.isWhole_whole _) (hstage1_1 0)

abbrev win1_2 : Pipeline.Window sig grid1 :=
  Pipeline.Window.whole (Memref.whole main_v3) false false (stage1_2 0) (sem1_2 0) (Memref.isWhole_whole _) (hstage1_2 0)

abbrev win1_3 : Pipeline.Window sig grid1 :=
  Pipeline.Window.whole (Memref.whole main_arg3) false false (stage1_3 0) (sem1_3 0) (Memref.isWhole_whole _) (hstage1_3 0)

abbrev win1_4 : Pipeline.Window sig grid1 :=
  Pipeline.Window.whole (Memref.whole main_v4) false false (stage1_4 0) (sem1_4 0) (Memref.isWhole_whole _) (hstage1_4 0)

abbrev win1_5 : Pipeline.Window sig grid1 :=
  Pipeline.Window.whole (Memref.whole main_v5) true false (stage1_5 0) (sem1_5 0) (Memref.isWhole_whole _) (hstage1_5 0)

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== Proof.Spec.lean ====
/-
  The mathematics both programs compute, on the extended reals, with no program in sight.

  A sample's activations are averaged over the spatial axis: the sum of the 3136 spatial entries of a
  channel times one shared scale (the same 32-bit pattern on both sides, never evaluated here). The
  pooled vector goes through two affine maps, a clamp at zero between them and a logistic at the end.
  The reference contracts "pooled times weight"; the kernel contracts "weight times pooled" on column
  vectors. The two agree because multiplication of extended reals commutes; sums are re-indexed, never
  re-associated across an infinity, so no finiteness is used.
-/
import Idealize.ShloMosaic.PureOps.Ideal
import Idealize.ShloMosaic.PureOps.Ideal.Laws
import Idealize.ShloMosaic.Lib.ValueIdx
import Idealize.ShloMosaic.Lib.Pipeline.Value

noncomputable section

namespace Cert.Alpha

open Idealize.ShloMosaic Idealize.ShloMosaic.ValueIdx
open scoped BigOperators

/-- The activation array, and its two row-major views: sample by channel by position, and row by position. -/
abbrev SX : Shape := ⟨4, ![64, 256, 56, 56]⟩
abbrev SX3 : Shape := ⟨3, ![64, 256, 3136]⟩
abbrev SX2 : Shape := ⟨2, ![16384, 3136]⟩
/-- The first weight matrix, channel by hidden unit; its bias as a vector, a column and a row. -/
abbrev SW1 : Shape := ⟨2, ![256, 256]⟩
abbrev SB1 : Shape := ⟨1, ![256]⟩
abbrev SB1c : Shape := ⟨2, ![256, 1]⟩
abbrev SB1r : Shape := ⟨2, ![1, 256]⟩
/-- The second weight matrix, a column; its bias as a vector and as a one-by-one matrix. -/
abbrev SW2 : Shape := ⟨2, ![256, 1]⟩
abbrev SB2 : Shape := ⟨1, ![1]⟩
abbrev SB2c : Shape := ⟨2, ![1, 1]⟩
/-- The pooled means as one column over all rows, and as sample by channel; the result, one value per sample. -/
abbrev SPc : Shape := ⟨2, ![16384, 1]⟩
abbrev SP : Shape := ⟨2, ![64, 256]⟩
abbrev SOut : Shape := ⟨2, ![64, 1]⟩

/-- The shared scale: the value both programs multiply a spatial sum by. -/
def scale : EReal := Ideal.ofBits .f32 0x39A72F05#32

/-- The scaled spatial sum of row `r` of the row-by-position view. -/
def poolRow (x2 : SX2.Idx → EReal) (r : Fin 16384) : EReal := (∑ s : Fin 3136, x2 (ix2 r s)) * scale

/-- All rows' scaled sums as a column. -/
def poolCol (x2 : SX2.Idx → EReal) : SPc.Idx → EReal := fun i => poolRow x2 (i 0)

/-- The two affine maps with the clamp and the logistic, contracting "pooled times weight", on a
    sample-by-channel array of pooled means and a row bias. -/
def mlpRow (p : SP.Idx → EReal) (w1 : SW1.Idx → EReal) (b1r : SB1r.Idx → EReal) (w2 : SW2.Idx → EReal)
    (b2c : SB2c.Idx → EReal) : SOut.Idx → EReal := fun i =>
  Ideal.logistic ((∑ j : Fin 256, max ((∑ ch : Fin 256, p (ix2 (i 0) ch) * w1 (ix2 ch j)) + b1r (ix2 (0 : Fin 1) j)) 0
      * w2 (ix2 j (0 : Fin 1))) + b2c (ix2 (0 : Fin 1) (0 : Fin 1)))

/-- The same chain per sample on column vectors, contracting "weight times pooled", with the spatial
    sum taken inside. -/
def alphaCol (x3 : SX3.Idx → EReal) (w1 : SW1.Idx → EReal) (b1c : SB1c.Idx → EReal) (w2 : SW2.Idx → EReal)
    (b2c : SB2c.Idx → EReal) : SOut.Idx → EReal := fun i =>
  Ideal.logistic ((∑ j : Fin 256, w2 (ix2 j (0 : Fin 1))
      * max ((∑ ch : Fin 256, w1 (ix2 ch j) * ((∑ s : Fin 3136, x3 (ix3 (i 0) ch s)) * scale)) + b1c (ix2 j (0 : Fin 1))) 0)
    + b2c (ix2 (0 : Fin 1) (0 : Fin 1)))

/-! ### The reshapes read at an index

Every reshape keeps an entry's row-major position, so each fact below is one comparison of two positions written as
sums of products of the coordinates. -/

/-- The entry of the activation array named by sample `n`, channel `ch` and flattened position `s`: the position
    splits into its image row `s / 56` and image column `s % 56`. -/
def entry (n : Fin 64) (ch : Fin 256) (s : Fin 3136) : SX.Idx :=
  ix4 n ch (⟨s.val / 56, by have := s.isLt; omega⟩ : Fin 56) (⟨s.val % 56, Nat.mod_lt _ (by decide)⟩ : Fin 56)

/-- The row of the row-by-position view that holds channel `ch` of sample `n`. -/
def rowOf (n : Fin 64) (ch : Fin 256) : Fin 16384 :=
  ⟨n.val * 256 + ch.val, by have := n.isLt; have := ch.isLt; omega⟩

/-- The sample-by-channel-by-position view at `(n, ch, s)` is that entry. -/
theorem view3_entry (x : SX.Idx → EReal) (h3 : SX.ShapeCasts SX3) (n : Fin 64) (ch : Fin 256) (s : Fin 3136) :
    shapeCast SX3 x h3 (ix3 n ch s) = x (entry n ch s) := by
  refine shapeCast_apply x h3 _ _ ?_
  rw [Shape.rowMajor_val_four, Shape.rowMajor_val_three]
  show ((n.val * 256 + ch.val) * 56 + s.val / 56) * 56 + s.val % 56 = (n.val * 256 + ch.val) * 3136 + s.val
  omega

/-- The row-by-position view at `(n * 256 + ch, s)` is the same entry. -/
theorem view2_entry (x : SX.Idx → EReal) (h2 : SX.ShapeCasts SX2) (n : Fin 64) (ch : Fin 256) (s : Fin 3136) :
    shapeCast SX2 x h2 (ix2 (rowOf n ch) s) = x (entry n ch s) := by
  refine shapeCast_apply x h2 _ _ ?_
  rw [Shape.rowMajor_val_four, Shape.rowMajor_val_two]
  show ((n.val * 256 + ch.val) * 56 + s.val / 56) * 56 + s.val % 56 = (n.val * 256 + ch.val) * 3136 + s.val
  omega

/-- So the two views agree entry by entry along a row. -/
theorem view3_eq_view2 (x : SX.Idx → EReal) (h3 : SX.ShapeCasts SX3) (h2 : SX.ShapeCasts SX2) (n : Fin 64)
    (ch : Fin 256) (s : Fin 3136) :
    shapeCast SX3 x h3 (ix3 n ch s) = shapeCast SX2 x h2 (ix2 (rowOf n ch) s) :=
  (view3_entry x h3 n ch s).trans (view2_entry x h2 n ch s).symm

/-- A column over all rows re-laid as sample by channel reads, at `(n, ch)`, its row `n * 256 + ch`. -/
theorem relaid_row (p : SPc.Idx → EReal) (hp : SPc.ShapeCasts SP) (n : Fin 64) (ch : Fin 256) :
    shapeCast SP p hp (ix2 n ch) = p (ix2 (rowOf n ch) (0 : Fin 1)) := by
  refine shapeCast_apply p hp _ _ ?_
  rw [Shape.rowMajor_val_two, Shape.rowMajor_val_two]
  show (n.val * 256 + ch.val) * 1 + 0 = n.val * 256 + ch.val
  omega

/-- The first bias as a column reads, at `(j, 0)`, its entry `j`. -/
theorem biasCol_entry (b1 : SB1.Idx → EReal) (hc : SB1.ShapeCasts SB1c) (j : Fin 256) :
    shapeCast SB1c b1 hc (ix2 j (0 : Fin 1)) = b1 (ix1 j) := by
  refine shapeCast_apply b1 hc _ _ ?_
  rw [Shape.rowMajor_val_one, Shape.rowMajor_val_two]
  show j.val = j.val * 1 + 0
  omega

/-- The first bias as a row reads, at `(0, j)`, the same entry `j`. -/
theorem biasRow_entry (b1 : SB1.Idx → EReal) (hr : SB1.ShapeCasts SB1r) (j : Fin 256) :
    shapeCast SB1r b1 hr (ix2 (0 : Fin 1) j) = b1 (ix1 j) := by
  refine shapeCast_apply b1 hr _ _ ?_
  rw [Shape.rowMajor_val_one, Shape.rowMajor_val_two]
  show j.val = 0 * 256 + j.val
  omega

/-! ### The pooled mean and the hidden unit, each the same on both sides -/

/-- The pooled column, re-laid as sample by channel, is at `(n, ch)` the scaled spatial sum the column form takes
    inside: the same 3136 entries are added in the same order, then scaled once. -/
theorem pooled_entry (x : SX.Idx → EReal) (h3 : SX.ShapeCasts SX3) (h2 : SX.ShapeCasts SX2) (hp : SPc.ShapeCasts SP)
    (n : Fin 64) (ch : Fin 256) :
    shapeCast SP (poolCol (shapeCast SX2 x h2)) hp (ix2 n ch)
      = (∑ s : Fin 3136, shapeCast SX3 x h3 (ix3 n ch s)) * scale := by
  rw [relaid_row]
  show (∑ s : Fin 3136, shapeCast SX2 x h2 (ix2 (rowOf n ch) s)) * scale = _
  refine congrArg (· * scale) (Finset.sum_congr rfl fun s _ => ?_)
  exact (view3_eq_view2 x h3 h2 n ch s).symm

/-- Hidden unit `j` of sample `n` before the clamp: "weight times pooled" plus the column bias is "pooled times
    weight" plus the row bias, term by term, since a product of extended reals does not depend on the order of its
    factors. -/
theorem hidden_eq (x : SX.Idx → EReal) (w1 : SW1.Idx → EReal) (b1 : SB1.Idx → EReal) (h3 : SX.ShapeCasts SX3)
    (h2 : SX.ShapeCasts SX2) (hp : SPc.ShapeCasts SP) (hc : SB1.ShapeCasts SB1c) (hr : SB1.ShapeCasts SB1r)
    (n : Fin 64) (j : Fin 256) :
    (∑ ch : Fin 256, w1 (ix2 ch j) * ((∑ s : Fin 3136, shapeCast SX3 x h3 (ix3 n ch s)) * scale))
        + shapeCast SB1c b1 hc (ix2 j (0 : Fin 1))
      = (∑ ch : Fin 256, shapeCast SP (poolCol (shapeCast SX2 x h2)) hp (ix2 n ch) * w1 (ix2 ch j))
        + shapeCast SB1r b1 hr (ix2 (0 : Fin 1) j) := by
  rw [biasCol_entry, biasRow_entry]
  refine congrArg (· + b1 (ix1 j)) (Finset.sum_congr rfl fun ch _ => ?_)
  rw [pooled_entry x h3 h2 hp n ch, mul_comm]

/-- The two chains are one function of the five arguments: the column form on the sample-by-channel-by-position
    view is the row form on the pooled column of the row-by-position view. -/
theorem alphaCol_eq_mlpRow (x : SX.Idx → EReal) (w1 : SW1.Idx → EReal) (b1 : SB1.Idx → EReal) (w2 : SW2.Idx → EReal)
    (b2 : SB2.Idx → EReal) (h3 : SX.ShapeCasts SX3) (h2 : SX.ShapeCasts SX2) (hp : SPc.ShapeCasts SP)
    (hc : SB1.ShapeCasts SB1c) (hr : SB1.ShapeCasts SB1r) (h22 : SB2.ShapeCasts SB2c) :
    alphaCol (shapeCast SX3 x h3) w1 (shapeCast SB1c b1 hc) w2 (shapeCast SB2c b2 h22)
      = mlpRow (shapeCast SP (poolCol (shapeCast SX2 x h2)) hp) w1 (shapeCast SB1r b1 hr) w2 (shapeCast SB2c b2 h22) := by
  funext i
  unfold alphaCol mlpRow
  -- the logistic and the second bias are shared; what is left is the sum over the hidden units
  refine congrArg (fun t => Ideal.logistic (t + shapeCast SB2c b2 h22 (ix2 (0 : Fin 1) (0 : Fin 1)))) ?_
  refine Finset.sum_congr rfl fun j _ => ?_
  -- one hidden unit: swap the two factors, then the clamped values agree
  rw [mul_comm, hidden_eq x w1 b1 h3 h2 hp hc hr (i 0) j]

end Cert.Alpha

end
-- ==== Proof.KernelValue.lean ====
/-
  What the kernel's program leaves in its result, at the ideal values. Grid point `n` loads sample `n`'s
  256 by 3136 block, sums each channel over the positions and scales it, multiplies the first weight matrix
  (contracted over its channel axis) into that column, adds the bias column, clamps at zero, multiplies the second
  weight column in the same way, adds its bias and applies the logistic; it writes the one value to block `n` of a
  64 by 1 by 1 array, whose blocks tile it; the reshape after the call drops the last axis.
-/
import proofs.«139969_g2000108762910826_pallasbulk_11_2_alg».proof.Proof.Gen.KernelIdeal.Frame
import proofs.«139969_g2000108762910826_pallasbulk_11_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KVal

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (m : (ℓ : Loc nD τ sig) → Buf (Elt Ideal) ℓ) (ρ : Dev nD → PrngReg)

/-! ## The body's arithmetic at its one index

The body turns the sample's 256 by 3136 block into one number. Read from the inside out: each channel's
row is summed over its 3136 positions and scaled; the first weight matrix is contracted with that column
over the channel axis; the bias column is added and the result clamped at zero; the second weight column
is contracted with it over the hidden axis; its bias is added and the logistic applied. -/

/-- A channel's row sum: the lane reduction of a 256 by 3136 array at channel `ch` is the sum of that row. -/
theorem rowSum_apply (x : FVec Ideal S256x3136 .f32) (hacc : (0x00000000#32 : BitVec 32) = 0x00000000#32) (ch : Fin 256) :
    multiReduction (F := Ideal) .add [1] S256 x 0x00000000#32 reduces_S256x3136_S256 (.inl rfl) hacc (ix1 ch)
      = ∑ s : Fin 3136, x (ix2 ch s) := by
  refine (Ideal.multiReduction_add_single x 0x00000000#32 reduces_S256x3136_S256 (.inl rfl) hacc (ix1 ch)).trans ?_
  refine Finset.sum_congr rfl fun s _ => congrArg x ?_
  funext a
  match a with
  | ⟨0, _⟩ => rfl
  | ⟨1, _⟩ => rfl

/-- A length-256 vector stood up as a 256 by 1 column reads its entry `ch` at row `ch`. -/
theorem column_apply (v : S256.Idx → EReal) (ch : Fin 256) (u : Fin 1) :
    shapeCast S256x1 v shapeCasts_S256_S256x1 (ix2 ch u) = v (ix1 ch) :=
  shapeCast_apply v shapeCasts_S256_S256x1 (ix2 ch u) (ix1 ch) (by
    have hu : u.val = 0 := by omega
    rw [Shape.rowMajor_val_one, Shape.rowMajor_val_two]
    show ch.val = ch.val * 1 + u.val
    omega)

/-- The sample's block with its leading unit axis dropped reads `(ch, s)` at `(0, ch, s)`. -/
theorem dropSample_apply (x : S1x256x3136.Idx → EReal) (ch : Fin 256) (s : Fin 3136) :
    shapeCast S256x3136 x shapeCasts_S1x256x3136_S256x3136 (ix2 ch s) = x (ix3 (0 : Fin 1) ch s) :=
  shapeCast_1ab_ab_apply x shapeCasts_S1x256x3136_S256x3136 ch s

/-! ### The two contractions

Both matrix products contract axis 0 of the left operand with axis 0 of the right one and keep the left
operand's axis 1 as the result's rows and the right operand's axis 1 as its columns: entry `(j, u)` of the
product is the sum over `k` of `left (k, j) * right (k, u)`. -/

/-- Hidden layer, left operand: its contracted axis 0 reads the contraction coordinate … -/
theorem hidden_left_0 (i : S256x1.Idx) (q : dot_S256x256_S256x1_S256x1_0_0_1_1_n_n.contr.Idx) :
    (dot_S256x256_S256x1_S256x1_0_0_1_1_n_n.lhsIdx i q 0).val = (q ⟨0, by decide⟩).val :=
  dot_S256x256_S256x1_S256x1_0_0_1_1_n_n.lhsIdx_val_of_single rfl i q
/-- … and its free axis 1 reads the result's row. -/
theorem hidden_left_1 (i : S256x1.Idx) (q : dot_S256x256_S256x1_S256x1_0_0_1_1_n_n.contr.Idx) :
    (dot_S256x256_S256x1_S256x1_0_0_1_1_n_n.lhsIdx i q 1).val = (i 0).val := by
  unfold DotDims.lhsIdx
  rw [dif_neg (show ¬(1 : Fin S256x256.rank) ∈ dot_S256x256_S256x1_S256x1_0_0_1_1_n_n.lhsBatch by decide),
    dif_pos (show (1 : Fin S256x256.rank) ∈ dot_S256x256_S256x1_S256x1_0_0_1_1_n_n.lhsNonContracting by decide)]
  rfl
/-- Hidden layer, right operand: its contracted axis 0 reads the contraction coordinate … -/
theorem hidden_right_0 (i : S256x1.Idx) (q : dot_S256x256_S256x1_S256x1_0_0_1_1_n_n.contr.Idx) :
    (dot_S256x256_S256x1_S256x1_0_0_1_1_n_n.rhsIdx i q 0).val = (q ⟨0, by decide⟩).val :=
  dot_S256x256_S256x1_S256x1_0_0_1_1_n_n.rhsIdx_val_of_single rfl i q
/-- … and its free axis 1 reads the result's column. -/
theorem hidden_right_1 (i : S256x1.Idx) (q : dot_S256x256_S256x1_S256x1_0_0_1_1_n_n.contr.Idx) :
    (dot_S256x256_S256x1_S256x1_0_0_1_1_n_n.rhsIdx i q 1).val = (i 1).val := by
  unfold DotDims.rhsIdx
  rw [dif_neg (show ¬(1 : Fin S256x1.rank) ∈ dot_S256x256_S256x1_S256x1_0_0_1_1_n_n.rhsBatch by decide),
    dif_pos (show (1 : Fin S256x1.rank) ∈ dot_S256x256_S256x1_S256x1_0_0_1_1_n_n.rhsNonContracting by decide)]
  rfl

/-- The hidden layer's product into the zero accumulator: row `j` is the weight matrix's column `j` against the column operand. -/
theorem hidden_apply (w : FVec Ideal S256x256 .f32) (p : FVec Ideal S256x1 .f32) (j : Fin 256) (u : Fin 1) :
    matmul dot_S256x256_S256x1_S256x1_0_0_1_1_n_n none w p (constant (F := Ideal) S256x1 .f32 0x00000000#32) (ix2 j u)
      = ∑ ch : Fin 256, w (ix2 ch j) * p (ix2 ch u) := by
  refine (Ideal.matmul_constant_zero_apply dot_S256x256_S256x1_S256x1_0_0_1_1_n_n none w p (ix2 j u)).trans ?_
  rw [← Equiv.sum_comp (contrEquiv1 dot_S256x256_S256x1_S256x1_0_0_1_1_n_n 256 rfl rfl).symm]
  refine Finset.sum_congr rfl fun ch _ => ?_
  have hk := contrEquiv1_symm_val dot_S256x256_S256x1_S256x1_0_0_1_1_n_n 256 rfl rfl ch
  have el : dot_S256x256_S256x1_S256x1_0_0_1_1_n_n.lhsIdx (ix2 j u)
      ((contrEquiv1 dot_S256x256_S256x1_S256x1_0_0_1_1_n_n 256 rfl rfl).symm ch) = ix2 ch j := funext fun a => Fin.ext (by
    match a with
    | ⟨0, _⟩ => exact (hidden_left_0 _ _).trans hk
    | ⟨1, _⟩ => exact hidden_left_1 _ _)
  have er : dot_S256x256_S256x1_S256x1_0_0_1_1_n_n.rhsIdx (ix2 j u)
      ((contrEquiv1 dot_S256x256_S256x1_S256x1_0_0_1_1_n_n 256 rfl rfl).symm ch) = ix2 ch u := funext fun a => Fin.ext (by
    match a with
    | ⟨0, _⟩ => exact (hidden_right_0 _ _).trans hk
    | ⟨1, _⟩ => exact hidden_right_1 _ _)
  rw [el, er]

/-- Output layer, left operand: its contracted axis 0 reads the contraction coordinate … -/
theorem output_left_0 (i : S1x1.Idx) (q : dot_S256x1_S256x1_S1x1_0_0_1_1_n_n.contr.Idx) :
    (dot_S256x1_S256x1_S1x1_0_0_1_1_n_n.lhsIdx i q 0).val = (q ⟨0, by decide⟩).val :=
  dot_S256x1_S256x1_S1x1_0_0_1_1_n_n.lhsIdx_val_of_single rfl i q
/-- … and its free axis 1 reads the result's row. -/
theorem output_left_1 (i : S1x1.Idx) (q : dot_S256x1_S256x1_S1x1_0_0_1_1_n_n.contr.Idx) :
    (dot_S256x1_S256x1_S1x1_0_0_1_1_n_n.lhsIdx i q 1).val = (i 0).val := by
  unfold DotDims.lhsIdx
  rw [dif_neg (show ¬(1 : Fin S256x1.rank) ∈ dot_S256x1_S256x1_S1x1_0_0_1_1_n_n.lhsBatch by decide),
    dif_pos (show (1 : Fin S256x1.rank) ∈ dot_S256x1_S256x1_S1x1_0_0_1_1_n_n.lhsNonContracting by decide)]
  rfl
/-- Output layer, right operand: its contracted axis 0 reads the contraction coordinate … -/
theorem output_right_0 (i : S1x1.Idx) (q : dot_S256x1_S256x1_S1x1_0_0_1_1_n_n.contr.Idx) :
    (dot_S256x1_S256x1_S1x1_0_0_1_1_n_n.rhsIdx i q 0).val = (q ⟨0, by decide⟩).val :=
  dot_S256x1_S256x1_S1x1_0_0_1_1_n_n.rhsIdx_val_of_single rfl i q
/-- … and its free axis 1 reads the result's column. -/
theorem output_right_1 (i : S1x1.Idx) (q : dot_S256x1_S256x1_S1x1_0_0_1_1_n_n.contr.Idx) :
    (dot_S256x1_S256x1_S1x1_0_0_1_1_n_n.rhsIdx i q 1).val = (i 1).val := by
  unfold DotDims.rhsIdx
  rw [dif_neg (show ¬(1 : Fin S256x1.rank) ∈ dot_S256x1_S256x1_S1x1_0_0_1_1_n_n.rhsBatch by decide),
    dif_pos (show (1 : Fin S256x1.rank) ∈ dot_S256x1_S256x1_S1x1_0_0_1_1_n_n.rhsNonContracting by decide)]
  rfl

/-- The output layer's product into the zero accumulator: its one entry is the weight column against the hidden column. -/
theorem output_apply (w : FVec Ideal S256x1 .f32) (h : FVec Ideal S256x1 .f32) (u v : Fin 1) :
    matmul dot_S256x1_S256x1_S1x1_0_0_1_1_n_n none w h (constant (F := Ideal) S1x1 .f32 0x00000000#32) (ix2 u v)
      = ∑ j : Fin 256, w (ix2 j u) * h (ix2 j v) := by
  refine (Ideal.matmul_constant_zero_apply dot_S256x1_S256x1_S1x1_0_0_1_1_n_n none w h (ix2 u v)).trans ?_
  rw [← Equiv.sum_comp (contrEquiv1 dot_S256x1_S256x1_S1x1_0_0_1_1_n_n 256 rfl rfl).symm]
  refine Finset.sum_congr rfl fun j _ => ?_
  have hk := contrEquiv1_symm_val dot_S256x1_S256x1_S1x1_0_0_1_1_n_n 256 rfl rfl j
  have el : dot_S256x1_S256x1_S1x1_0_0_1_1_n_n.lhsIdx (ix2 u v)
      ((contrEquiv1 dot_S256x1_S256x1_S1x1_0_0_1_1_n_n 256 rfl rfl).symm j) = ix2 j u := funext fun a => Fin.ext (by
    match a with
    | ⟨0, _⟩ => exact (output_left_0 _ _).trans hk
    | ⟨1, _⟩ => exact output_left_1 _ _)
  have er : dot_S256x1_S256x1_S1x1_0_0_1_1_n_n.rhsIdx (ix2 u v)
      ((contrEquiv1 dot_S256x1_S256x1_S1x1_0_0_1_1_n_n 256 rfl rfl).symm j) = ix2 j v := funext fun a => Fin.ext (by
    match a with
    | ⟨0, _⟩ => exact (output_right_0 _ _).trans hk
    | ⟨1, _⟩ => exact output_right_1 _ _)
  rw [el, er]

/-! ### The chain, stage by stage -/

/-- The pooled column: each channel's row sum over the positions, times the shared scale. -/
def pooled (x : FVec Ideal S1x256x3136 .f32) : FVec Ideal S256x1 .f32 :=
  mulf (shapeCast S256x1 (multiReduction (F := Ideal) .add [1] S256 (shapeCast S256x3136 x shapeCasts_S1x256x3136_S256x3136)
      0x00000000#32 reduces_S256x3136_S256 (.inl rfl) rfl) shapeCasts_S256_S256x1)
    (broadcast S256x1 (Scalar.ofBits (F := Ideal) .f32 0x39A72F05#32))

theorem pooled_apply (x : FVec Ideal S1x256x3136 .f32) (ch : Fin 256) (u : Fin 1) :
    pooled x (ix2 ch u) = (∑ s : Fin 3136, x (ix3 (0 : Fin 1) ch s)) * Cert.Alpha.scale := by
  refine (mulf_apply _ _ _).trans ?_
  refine congrArg (· * Cert.Alpha.scale) ?_
  refine (column_apply _ ch u).trans ?_
  refine (rowSum_apply _ rfl ch).trans ?_
  exact Finset.sum_congr rfl fun s _ => dropSample_apply x ch s

/-- The hidden column: the first weight matrix against the pooled column, plus the bias column, clamped at zero. -/
def hidden (x : FVec Ideal S1x256x3136 .f32) (w1 : FVec Ideal S256x256 .f32) (b1 : FVec Ideal S256x1 .f32) : FVec Ideal S256x1 .f32 :=
  maximumf (addf (matmul dot_S256x256_S256x1_S256x1_0_0_1_1_n_n none w1 (pooled x) (constant (F := Ideal) S256x1 .f32 0x00000000#32))
      (shapeCast S256x1 b1 shapeCasts_S256x1_S256x1))
    (broadcast S256x1 (Scalar.ofBits (F := Ideal) .f32 0x00000000#32))

theorem hidden_col_apply (x : FVec Ideal S1x256x3136 .f32) (w1 : FVec Ideal S256x256 .f32) (b1 : FVec Ideal S256x1 .f32) (j : Fin 256) (u : Fin 1) :
    hidden x w1 b1 (ix2 j u)
      = max ((∑ ch : Fin 256, w1 (ix2 ch j) * ((∑ s : Fin 3136, x (ix3 (0 : Fin 1) ch s)) * Cert.Alpha.scale)) + b1 (ix2 j u)) 0 := by
  refine (maximumf_apply _ _ _).trans ?_
  refine congrArg₂ max ?_ Ideal.ofBits_zero_f32
  refine (addf_apply _ _ _).trans ?_
  refine congrArg₂ (· + ·) ?_ (congrFun (shapeCast_self b1 shapeCasts_S256x1_S256x1) (ix2 j u))
  refine (hidden_apply w1 (pooled x) j u).trans ?_
  exact Finset.sum_congr rfl fun ch _ => congrArg (w1 (ix2 ch j) * ·) (pooled_apply x ch u)

/-- The body's value: what it stores, at the block's one index, is the chain applied to the five blocks it loaded. -/
theorem body_apply (x : FVec Ideal S1x256x3136 .f32) (w1 : FVec Ideal S256x256 .f32) (b1 : FVec Ideal S256x1 .f32)
    (w2 : FVec Ideal S256x1 .f32) (b2 : FVec Ideal S1x1 .f32) (u0 u1 u2 : Fin 1) :
    k0_pay1 (F := Ideal) x w1 b1 w2 b2 (ix3 u0 u1 u2)
      = Ideal.logistic ((∑ j : Fin 256, w2 (ix2 j (0 : Fin 1))
          * max ((∑ ch : Fin 256, w1 (ix2 ch j) * ((∑ s : Fin 3136, x (ix3 (0 : Fin 1) ch s)) * Cert.Alpha.scale)) + b1 (ix2 j (0 : Fin 1))) 0)
        + b2 (ix2 (0 : Fin 1) (0 : Fin 1))) := by
  show shapeCast S1x1x1 (logistic (addf (matmul dot_S256x1_S256x1_S1x1_0_0_1_1_n_n none w2 (hidden x w1 b1)
      (constant (F := Ideal) S1x1 .f32 0x00000000#32)) (shapeCast S1x1 b2 shapeCasts_S1x1_S1x1))) shapeCasts_S1x1_S1x1x1 (ix3 u0 u1 u2) = _
  refine (shapeCast_ab_1ab_apply _ shapeCasts_S1x1_S1x1x1 u0 u1 u2).trans ?_
  obtain rfl : u1 = 0 := Subsingleton.elim _ _
  obtain rfl : u2 = 0 := Subsingleton.elim _ _
  refine congrArg Ideal.logistic ?_
  refine (addf_apply _ _ _).trans ?_
  refine congrArg₂ (· + ·) ?_ (congrFun (shapeCast_self b2 shapeCasts_S1x1_S1x1) (ix2 (0 : Fin 1) (0 : Fin 1)))
  refine (output_apply w2 (hidden x w1 b1) 0 0).trans ?_
  exact Finset.sum_congr rfl fun j _ => congrArg (w2 (ix2 j (0 : Fin 1)) * ·) (hidden_col_apply x w1 b1 j 0)

/-! ## The five blocks the body loads at a point

The grid has one axis of 64 points, one per sample. The sample window and the result window move with the
point along their first axis; the two weight arrays and the two bias arrays are fetched whole. -/

/-- The printed index maps, decided over the grid: at point `t` the sample window and the result window are at
    block `t` of their first axis and block 0 of the others; the four whole-array windows are at block 0. -/
theorem blockIndex : ∀ t : Fin cfg0.N,
    (win0_0.index t (0 : Fin 3) = t.val ∧ win0_0.index t (1 : Fin 3) = 0 ∧ win0_0.index t (2 : Fin 3) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = t.val ∧ win0_5.index t (1 : Fin 3) = 0 ∧ win0_5.index t (2 : Fin 3) = 0) :=
  (by decide +kernel : ∀ t : Fin grid0.N, _)

/-- The activations as the region finds them: the first argument seen sample by channel by position. -/
theorem entry_activations (c : Dev nD) :
    (V m c main_v0 : S64x256x3136.Idx → EReal)
      = shapeCast S64x256x3136 (m ((c.tc : Thread nD τ).loc main_arg0)) shapeCasts_S64x256x56x56_S64x256x3136 := by
  show StableHlo.after hostOps0 (fun b => m (c, b)) (Proc.devRef .tc main_v0) = _
  after_results
  rfl

/-- The first bias as the region finds it: the third argument stood up as a column. -/
theorem entry_bias1 (c : Dev nD) :
    (V m c main_v1 : S256x1.Idx → EReal)
      = shapeCast S256x1 (m ((c.tc : Thread nD τ).loc main_arg2)) shapeCasts_S256_S256x1 := by
  show StableHlo.after hostOps0 (fun b => m (c, b)) (Proc.devRef .tc main_v1) = _
  after_results
  rfl

/-- The second bias as the region finds it: the fifth argument as a one-by-one matrix. -/
theorem entry_bias2 (c : Dev nD) :
    (V m c main_v2 : S1x1.Idx → EReal)
      = shapeCast S1x1 (m ((c.tc : Thread nD τ).loc main_arg4)) shapeCasts_S1_S1x1 := by
  show StableHlo.after hostOps0 (fun b => m (c, b)) (Proc.devRef .tc main_v2) = _
  after_results
  rfl

/-- The sample window's block at point `t` is sample `t` of the activations. -/
theorem sampleBlock_apply (c : Dev nD) (t : Fin cfg0.N) (n : Fin 64) (hn : n.val = t.val) (ch : Fin 256) (s : Fin 3136) :
    (iblk m c 0 t : Vec Ideal S1x256x3136 .f32) (ix3 (0 : Fin 1) ch s)
      = shapeCast S64x256x3136 (m ((c.tc : Thread nD τ).loc main_arg0)) shapeCasts_S64x256x56x56_S64x256x3136 (ix3 n ch s) := by
  obtain ⟨⟨e0, e1, e2⟩, -⟩ := blockIndex t
  unfold iblk
  rw [View.read_apply]
  show (V m c main_v0 : S64x256x3136.Idx → EReal) _ = _
  rw [entry_activations]
  refine congrArg _ ?_
  funext a; apply Fin.ext
  match a with
  | ⟨0, _⟩ => show win0_0.index t (0 : Fin 3) * 1 + 1 * 0 = n.val; omega
  | ⟨1, _⟩ => show win0_0.index t (1 : Fin 3) * 256 + 1 * ch.val = ch.val; omega
  | ⟨2, _⟩ => show win0_0.index t (2 : Fin 3) * 3136 + 1 * s.val = s.val; omega

/-- The first weight matrix is fetched whole: its block at any point is the second argument. -/
theorem weight1Block_apply (c : Dev nD) (t : Fin cfg0.N) (a : Fin 256) (b : Fin 256) :
    (iblk m c 1 t : Vec Ideal S256x256 .f32) (ix2 a b)
      = (m ((c.tc : Thread nD τ).loc main_arg1) : S256x256.Idx → EReal) (ix2 a b) := by
  obtain ⟨-, ⟨e0, e1⟩, -⟩ := blockIndex t
  unfold iblk
  rw [View.read_apply]
  show (V m c main_arg1 : S256x256.Idx → EReal) _ = _
  rw [V_main_arg1]
  refine congrArg _ ?_
  funext k; apply Fin.ext
  match k with
  | ⟨0, _⟩ => show win0_1.index t (0 : Fin 2) * 256 + 1 * a.val = a.val; omega
  | ⟨1, _⟩ => show win0_1.index t (1 : Fin 2) * 256 + 1 * b.val = b.val; omega

/-- The first bias is fetched whole: its block at any point is the third argument as a column. -/
theorem bias1Block_apply (c : Dev nD) (t : Fin cfg0.N) (a : Fin 256) (b : Fin 1) :
    (iblk m c 2 t : Vec Ideal S256x1 .f32) (ix2 a b)
      = shapeCast S256x1 (m ((c.tc : Thread nD τ).loc main_arg2)) shapeCasts_S256_S256x1 (ix2 a b) := by
  obtain ⟨-, -, ⟨e0, e1⟩, -⟩ := blockIndex t
  unfold iblk
  rw [View.read_apply]
  show (V m c main_v1 : S256x1.Idx → EReal) _ = _
  rw [entry_bias1]
  refine congrArg _ ?_
  funext k; apply Fin.ext
  match k with
  | ⟨0, _⟩ => show win0_2.index t (0 : Fin 2) * 256 + 1 * a.val = a.val; omega
  | ⟨1, _⟩ => show win0_2.index t (1 : Fin 2) * 1 + 1 * b.val = b.val; omega

/-- The second weight column is fetched whole: its block at any point is the fourth argument. -/
theorem weight2Block_apply (c : Dev nD) (t : Fin cfg0.N) (a : Fin 256) (b : Fin 1) :
    (iblk m c 3 t : Vec Ideal S256x1 .f32) (ix2 a b)
      = (m ((c.tc : Thread nD τ).loc main_arg3) : S256x1.Idx → EReal) (ix2 a b) := by
  obtain ⟨-, -, -, ⟨e0, e1⟩, -⟩ := blockIndex t
  unfold iblk
  rw [View.read_apply]
  show (V m c main_arg3 : S256x1.Idx → EReal) _ = _
  rw [V_main_arg3]
  refine congrArg _ ?_
  funext k; apply Fin.ext
  match k with
  | ⟨0, _⟩ => show win0_3.index t (0 : Fin 2) * 256 + 1 * a.val = a.val; omega
  | ⟨1, _⟩ => show win0_3.index t (1 : Fin 2) * 1 + 1 * b.val = b.val; omega

/-- The second bias is fetched whole: its block at any point is the fifth argument as a one-by-one matrix. -/
theorem bias2Block_apply (c : Dev nD) (t : Fin cfg0.N) (a : Fin 1) (b : Fin 1) :
    (iblk m c 4 t : Vec Ideal S1x1 .f32) (ix2 a b)
      = shapeCast S1x1 (m ((c.tc : Thread nD τ).loc main_arg4)) shapeCasts_S1_S1x1 (ix2 a b) := by
  obtain ⟨-, -, -, -, ⟨e0, e1⟩, -⟩ := blockIndex t
  unfold iblk
  rw [View.read_apply]
  show (V m c main_v2 : S1x1.Idx → EReal) _ = _
  rw [entry_bias2]
  refine congrArg _ ?_
  funext k; apply Fin.ext
  match k with
  | ⟨0, _⟩ => show win0_4.index t (0 : Fin 2) * 1 + 1 * a.val = a.val; omega
  | ⟨1, _⟩ => show win0_4.index t (1 : Fin 2) * 1 + 1 * b.val = b.val; omega

/-- The column form of the chain on the program's five arguments, each seen through the reshape the program applies
    to it before the call. -/
def result (c : Dev nD) : Buf (Elt Ideal) ((c.tc : Thread nD τ).loc main_v4) :=
  Cert.Alpha.alphaCol
    (shapeCast S64x256x3136 (m ((c.tc : Thread nD τ).loc main_arg0)) shapeCasts_S64x256x56x56_S64x256x3136)
    (m ((c.tc : Thread nD τ).loc main_arg1))
    (shapeCast S256x1 (m ((c.tc : Thread nD τ).loc main_arg2)) shapeCasts_S256_S256x1)
    (m ((c.tc : Thread nD τ).loc main_arg3))
    (shapeCast S1x1 (m ((c.tc : Thread nD τ).loc main_arg4)) shapeCasts_S1_S1x1)

/-! ## What a point writes back, and the array after the call -/

/-- Point `t`'s value is entry `(t, 0)` of the chain on the arguments: the body's arithmetic on the five blocks,
    each block read back as its part of an argument. -/
theorem pointValue (c : Dev nD) (t : Fin cfg0.N) (n : Fin 64) (hn : n.val = t.val) (z : S1x1x1.Idx) :
    k0_pay1 (F := Ideal) (iblk m c 0 t) (iblk m c 1 t) (iblk m c 2 t) (iblk m c 3 t) (iblk m c 4 t) z
      = (result m c : S64x1.Idx → EReal) (ix2 n (0 : Fin 1)) := by
  obtain ⟨u0, u1, u2, rfl⟩ : ∃ (u0 u1 u2 : Fin 1), z = ix3 u0 u1 u2 := ⟨z 0, z 1, z 2, eq_ix3 z⟩
  refine (body_apply (iblk m c 0 t) (iblk m c 1 t) (iblk m c 2 t) (iblk m c 3 t) (iblk m c 4 t) u0 u1 u2).trans ?_
  show Ideal.logistic _ = Ideal.logistic _
  refine congrArg Ideal.logistic ?_
  refine congrArg₂ (· + ·) (Finset.sum_congr rfl fun j _ => ?_) (bias2Block_apply m c t 0 0)
  refine congrArg₂ (· * ·) (weight2Block_apply m c t j 0) ?_
  refine congrArg₂ max ?_ rfl
  refine congrArg₂ (· + ·) (Finset.sum_congr rfl fun ch _ => ?_) (bias1Block_apply m c t j 0)
  refine congrArg₂ (· * ·) (weight1Block_apply m c t ch j) ?_
  exact congrArg (· * Cert.Alpha.scale) (Finset.sum_congr rfl fun s _ => sampleBlock_apply m c t n hn ch s)

/-- The array the call writes: at `(n, 0, 0)`, entry `(n, 0)` of the chain on the arguments. -/
def callResult (c : Dev nD) : Buf (Elt Ideal) ((c.tc : Thread nD τ).loc main_v3) :=
  fun i : S64x1x1.Idx => (result m c : S64x1.Idx → EReal) (ix2 (i 0 : Fin 64) (0 : Fin 1))

theorem zeros3 : (![0, 0, 0] : Fin 3 → Nat) = fun _ => 0 := funext fun a => by fin_cases a <;> rfl
theorem zeros2 : (![0, 0] : Fin 2 → Nat) = fun _ => 0 := funext fun a => by fin_cases a <;> rfl

/-- What point `t` writes back is block `t` of that array. -/
theorem pointWrites (c : Dev nD) (t : Fin cfg0.N) :
    (dats m 0 c).flushed 5 t = ((cfg0.win 5).blk t).view.read (Elt Ideal) (callResult m c) := by
  show (cfg0.win 5).cut (grid0.coords t) ((dats m 0 c).after 5 t) = _
  rw [after0_5]
  unfold out0_5
  rw [View.canon_unit_zero zeros3]
  simp only [View.ld_unit_zero (S := S1x256x3136) zeros3, View.ld_unit_zero (S := S256x256) zeros2,
    View.ld_unit_zero (S := S256x1) zeros2, View.ld_unit_zero (S := S1x1) zeros2]
  funext y
  obtain ⟨-, -, -, -, -, e0, -, -⟩ := blockIndex t
  have ht : t.val < 64 := lt_of_lt_of_eq t.isLt N_0
  refine (pointValue m c t ⟨t.val, ht⟩ rfl ((cfg0.win 5).xinj (grid0.coords t) y)).trans ?_
  show (result m c : S64x1.Idx → EReal) (ix2 (⟨t.val, ht⟩ : Fin 64) (0 : Fin 1))
      = (result m c : S64x1.Idx → EReal) (ix2 ((((cfg0.win 5).blk t).view.emb y) 0 : Fin 64) (0 : Fin 1))
  refine congrArg (result m c : S64x1.Idx → EReal) (congrArg (fun k : Fin 64 => ix2 k (0 : Fin 1)) (Fin.ext ?_))
  show t.val = win0_5.index t (0 : Fin 3) * 1 + 1 * (y 0).val
  have hy : (y 0).val < 1 := (y 0).isLt
  omega

/-- An index of the call's result array lies in point `t`'s block iff each coordinate lies in the block's range on its axis. -/
theorem mem_pointBlock (t : Fin cfg0.N) (i : S64x1x1.Idx) :
    i ∈ ((cfg0.win 5).blk t).view.set
      ↔ ∀ a : Fin 3, win0_5.index t a * S1x1x1.size a ≤ (i a).val ∧ (i a).val < win0_5.index t a * S1x1x1.size a + S1x1x1.size a := by
  show i ∈ ((View.whole main_v3).slice (win0_5.rect t)).set ↔ _
  rw [View.set_slice_whole, Rect.mem_set_unit]
  exact Iff.rfl

/-- The 64 one-element blocks tile the result array: `(n, 0, 0)` lies in point `n`'s block, and every point writes back. -/
theorem covered (i : S64x1x1.Idx) :
    ∃ t : Fin cfg0.N, (cfg0.win 5).flush t = true ∧ i ∈ ((cfg0.win 5).blk t).view.set := by
  have hi0 : (i 0).val < 64 := (i 0).isLt
  have hi1 : (i 1).val < 1 := (i 1).isLt
  have hi2 : (i 2).val < 1 := (i 2).isLt
  obtain ⟨-, -, -, -, -, e0, e1, e2⟩ := blockIndex ⟨(i 0).val, lt_of_lt_of_eq hi0 N_0.symm⟩
  have e0' : win0_5.index ⟨(i 0).val, lt_of_lt_of_eq hi0 N_0.symm⟩ (0 : Fin 3) = (i 0).val := e0
  refine ⟨⟨(i 0).val, lt_of_lt_of_eq hi0 N_0.symm⟩, flush0_5 _, ?_⟩
  rw [mem_pointBlock]
  intro a
  match a with
  | ⟨0, _⟩ =>
    show win0_5.index ⟨(i 0).val, lt_of_lt_of_eq hi0 N_0.symm⟩ (0 : Fin 3) * 1 ≤ (i 0).val
      ∧ (i 0).val < win0_5.index ⟨(i 0).val, lt_of_lt_of_eq hi0 N_0.symm⟩ (0 : Fin 3) * 1 + 1
    omega
  | ⟨1, _⟩ =>
    show win0_5.index ⟨(i 0).val, lt_of_lt_of_eq hi0 N_0.symm⟩ (1 : Fin 3) * 1 ≤ (i 1).val
      ∧ (i 1).val < win0_5.index ⟨(i 0).val, lt_of_lt_of_eq hi0 N_0.symm⟩ (1 : Fin 3) * 1 + 1
    omega
  | ⟨2, _⟩ =>
    show win0_5.index ⟨(i 0).val, lt_of_lt_of_eq hi0 N_0.symm⟩ (2 : Fin 3) * 1 ≤ (i 2).val
      ∧ (i 2).val < win0_5.index ⟨(i 0).val, lt_of_lt_of_eq hi0 N_0.symm⟩ (2 : Fin 3) * 1 + 1
    omega

/-- The array after the call: each entry is written by its own point, so it holds the chain's values sample by sample. -/
theorem callArray (c : Dev nD) : (dats m 0 c).arrAt 5 cfg0.N = callResult m c :=
  (dats m 0 c).arrAt_eq_of_cover 5 (callResult m c) (fun t _ => pointWrites m c t) covered

/-! ## The reshape after the call, and the run -/

/-- Dropping the result array's last axis: row-major, `(n, 0, 0)` and `(n, 0)` are the same position. -/
theorem dropLastAxis (c : Dev nD) :
    shapeCast S64x1 (callResult m c : S64x1x1.Idx → EReal) shapeCasts_S64x1x1_S64x1 = (result m c : S64x1.Idx → EReal) := by
  funext i
  obtain ⟨n, u, rfl⟩ : ∃ (n : Fin 64) (u : Fin 1), i = ix2 n u := ⟨i 0, i 1, eq_ix2 i⟩
  obtain rfl : u = 0 := Subsingleton.elim _ _
  refine (shapeCast_apply _ shapeCasts_S64x1x1_S64x1 (ix2 n (0 : Fin 1)) (ix3 n (0 : Fin 1) (0 : Fin 1)) ?_).trans rfl
  rw [Shape.rowMajor_val_three, Shape.rowMajor_val_two]
  show (n.val * 1 + 0) * 1 + 0 = n.val * 1 + 0
  omega

/-- The program's last line reshapes the array the call wrote, so the result buffer ends at the chain on the arguments. -/
theorem lastReshape (c : Dev nD) :
    Pipeline.afterTail₀ cfgs (dats m) 0 (V0 m) [hostOps1] c main_v4 = result m c := by
  have e : Pipeline.withArrays (cfgs 0).spec c (V0 m c) (fun w => (dats m 0 c).arrAt w (cfgs 0).N) (Proc.devRef .tc main_v3)
      = callResult m c :=
    (Pipeline.withArrays_arr spec0 launch0.win.arr_inj c (V0 m c) _ 5).trans (callArray m c)
  unfold Pipeline.afterTail₀
  show StableHlo.after hostOps1 _ (Proc.devRef .tc main_v4) = _
  after_results
  rw [e]
  exact dropLastAxis m c

/-- Every weakly fair execution terminates with the result buffer at `result` and the arguments as launched. -/
theorem run_value : θ_run (defs (F := Ideal)) (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v4 (Pipeline.mem_restRefs_of main_v4 (by decide) (by decide))).trans (lastReshape m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.KVal

end
-- ==== Proof.RefPool.lean ====
/-
  The reference's first call, the spatial pooling, as a pipeline region: what its staging buffers hold after
  the body at every grid point, and that the body does leave them so.

  The grid is 32 row blocks by 2 spatial tiles; point `t` is row block `t / 2`, tile `t % 2`. The input block
  is 512 rows by 2048 positions; the second tile overhangs the array's 3136 positions, so only its first
  1088 columns are fetched and the rest of the buffer holds whatever it held. The body zeroes the output
  block at tile 0, adds to it the row sums of the input block WITH EVERY POSITION PAST 3136 REPLACED BY ZERO,
  and at tile 1 scales it. So what the body leaves does not depend on the unfetched columns: that is the
  one fact this region needs beyond running the body.
-/
import proofs.«139969_g2000108762910826_pallasbulk_11_2_alg».proof.Proof.Gen.ReferenceIdeal.Launch
import proofs.«139969_g2000108762910826_pallasbulk_11_2_alg».proof.Proof.Gen.ReferenceIdeal.Skeleton
import proofs.«139969_g2000108762910826_pallasbulk_11_2_alg».proof.Proof.Gen.ReferenceIdeal.Points
import Idealize.ShloMosaic.Lib.Pipeline.FrameBody
import Idealize.ShloMosaic.Lib.Pipeline.Frame
import Idealize.ShloMosaic.Lib.Pipeline.Value
import Idealize.ShloMosaic.Lib.Affine
import Idealize.ShloMosaic.Lib.Ring
import Idealize.ShloMosaic.Lib.Tactic

set_option maxRecDepth 16384

noncomputable section

namespace Cert.ReferenceIdeal.Pool

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- The input window's block at point `t`, its part inside the array: 512 rows, 2048 positions at tile 0 and
    1088 at tile 1. -/
def xblk (c : Dev nD) (t : Fin cfg0.N) : ((cfg0.win 0).xblock (cfg0.grid.coords t)).Idx → Elt F (cfg0.win 0).elt :=
  ((cfg0.win 0).blk t).view.read (Elt F) (V c (Pipeline.arrRef spec0 0))

/-- That block filled out to the whole 512 by 2048 buffer with the zero word. -/
def xfill (c : Dev nD) (t : Fin cfg0.N) : Vec F S512x2048 .f32 :=
  (cfg0.win 0).fill (cfg0.grid.coords t) (fun _ => Scalar.ofBits .f32 0#32) (xblk V c t)

/-- The output block after a tile-0 point: the masked row sums of the input block added to zero. -/
def accA (c : Dev nD) (t : Fin cfg0.N) : Vec F S512x1 .f32 :=
  k0_pay2 (grid0.coords t) (xfill V c t) (k0_pay1 (F := F))

/-- The output block after a tile-1 point that found `prev` there: the masked row sums added to it, scaled. -/
def accB (c : Dev nD) (t : Fin cfg0.N) (prev : Vec F S512x1 .f32) : Vec F S512x1 .f32 :=
  k0_pay3 (k0_pay2 (grid0.coords t) (xfill V c t) prev)

/-- The output block after the body at point `t`: at tile 0 the first partial sums, at tile 1 the scaled total over
    what the point before left. -/
def poolAfter (c : Dev nD) (t : Fin cfg0.N) : Vec F S512x1 .f32 :=
  if t.val % 2 = 0 then accA V c t
  else accB V c t (accA V c ⟨t.val - 1, Nat.lt_of_le_of_lt (Nat.sub_le _ _) t.isLt⟩)

/-- The region's proof data on core `c`: the arrays as the region finds them; after the body the input buffer at
    its block (zero-filled) and the output buffer at `poolAfter`; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => xfill V c t
    | ⟨1, _⟩ => poolAfter V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = xfill V c t := by dsimp only [dat0]
theorem after0_1 (c : Dev nD) (t : Fin cfg0.N) : (dat0 V c).after 1 t = poolAfter V c t := by dsimp only [dat0]

/-! ## What the buffers hold when the body runs -/

/-- The input window's buffer when the body runs: fetched at every point. -/
theorem before0_0 (c : Dev nD) (t : Fin cfg0.N) (d) :
    (dat0 V c).before 0 t d = (cfg0.win 0).fill (cfg0.grid.coords t) d (xblk V c t) := by
  unfold Dat.before; rw [if_pos (fetch0_0 t)]; rfl

/-- At an even point the output buffer is fresh. -/
theorem before0_1_even (c : Dev nD) (t : Fin cfg0.N) (h0 : t.val % 2 = 0) (d) :
    (dat0 V c).before 1 t d = d := by
  refine Dat.before_out_reset _ 1 rfl t ?_ d
  by_cases ht : t.val = 0
  · exact .inl ht
  · refine .inr ⟨ht, (flush0_1 _).mpr ?_⟩
    dsimp only; omega

/-- At an odd point it holds what the even point before left. -/
theorem before0_1_odd (c : Dev nD) (t : Fin cfg0.N) (h1 : t.val % 2 = 1) (d) :
    (dat0 V c).before 1 t d = accA V c ⟨t.val - 1, Nat.lt_of_le_of_lt (Nat.sub_le _ _) t.isLt⟩ := by
  rw [Dat.before_out_kept _ 1 rfl t (by omega) (Bool.eq_false_iff.mpr fun h => by have := (flush0_1 _).mp h; dsimp only at this; omega)
    (fun _ => rfl) (fun _ _ => rfl)]
  rw [after0_1]; unfold poolAfter; rw [if_pos (by dsimp only; omega)]

/-! ## The body, tile by tile -/

/-- The first conditional's test: the tile coordinate is zero. -/
abbrev atTile0 (i : grid0.Coords) : Prop := (Scalar.cmpi .ne (Scalar.extui (Scalar.cmpi .eq (BitVec.ofNat 32 (i 1).val) 0#32)) 0#32) = 1#1
/-- The second conditional's test: the tile coordinate is one. -/
abbrev atTile1 (i : grid0.Coords) : Prop := (Scalar.cmpi .ne (Scalar.extui (Scalar.cmpi .eq (BitVec.ofNat 32 (i 1).val) 1#32)) 0#32) = 1#1

/-- Tile zero is the even points, -/
theorem atTile0_iff : ∀ t : Fin cfg0.N, atTile0 (grid0.coords t) ↔ t.val % 2 = 0 :=
  (by decide +kernel : ∀ t : Fin grid0.N, atTile0 (grid0.coords t) ↔ t.val % 2 = 0)
/-- tile one the odd ones. -/
theorem atTile1_iff : ∀ t : Fin cfg0.N, atTile1 (grid0.coords t) ↔ t.val % 2 = 1 :=
  (by decide +kernel : ∀ t : Fin grid0.N, atTile1 (grid0.coords t) ↔ t.val % 2 = 1)

/-- The offsets of a whole-buffer access, both zero. -/
theorem zeros2 : (![0, 0] : Fin 2 → Nat) = fun _ => 0 := funext fun a => by fin_cases a <;> rfl

set_option maxHeartbeats 1000000 in
/-- The body at tile zero, on whole buffers: the input buffer holding `X` and the output buffer anything, it leaves
    the input as it was and the output at the masked row sums of `X` added to zero. The reset store covers the
    output buffer, so the load after it reads the zeros; the sum's store covers it again. -/
theorem run_tile0 (c : Dev nD) (i : grid0.Coords) (arg2 : Memref sig .tc .vmem S512x2048 .f32) (harg2 : arg2.IsWhole)
    (arg3 : Memref sig .tc .vmem S512x1 .f32) (harg3 : arg3.IsWhole) (h0 : atTile0 i) (h1 : ¬atTile1 i)
    (X : Vec F S512x2048 .f32) (E : Set ℕ) (K : PUnit → sProp 𝕄) :
    iprop(owns (c : Thread nD τ) arg2 fullShare X ∗ (∃ d, owns (c : Thread nD τ) arg3 fullShare d)
        ∗ (iprop(owns (c : Thread nD τ) arg2 fullShare X ∗ owns (c : Thread nD τ) arg3 fullShare (k0_pay2 i X (k0_pay1 (F := F)))) -∗ K ⟨⟩))
      ⊢ wp frame (wpE (defs₀ (F := F)) Variants.none c none) E (cc0__pool_kernel_body i arg2 harg2 arg3 harg3) K := by
  simp only [cc0__pool_kernel_body_eq_skeleton]; unfold cc0__pool_kernel_body_skel
  unfold owns
  iintro ⟨⟨%f0, %hf0, H0⟩, ⟨%d1, %f1, -, H1⟩, Hk⟩
  obtain rfl := harg2.eq_unread hf0
  sl_exec (disch := first | exact h0 | exact h1)
  sl_step
  iapply Hk
  isplitl [H0]
  · iexists _; isplitr; · ipureintro; exact harg2.read_unread _
    iexact H0
  iexists _; isplitr
  swap; · iexact H1
  ipureintro
  rw [View.read_writes_eq_canon _ _ _ (fun y => ⟨_, List.mem_cons_self .., View.mem_set_unit_zero zeros2 inb_S512x1_S512x1_0_0 y⟩),
    View.canon_cons_unit_zero (S := S512x1) zeros2]
  sl_unfold_words
  simp only [View.readAt_eq_ld, harg2.read_unread, View.ld_unit_zero (S := S512x2048) zeros2, View.readCov_unit_zero (S := S512x1) _ zeros2]

set_option maxHeartbeats 1000000 in
/-- The body at tile one, on whole buffers: the input buffer holding `X` and the output buffer `Y`, it leaves the
    input as it was and the output at the masked row sums of `X` added to `Y`, scaled. The sum's store covers the
    output buffer, so the load in the second conditional reads the sum. -/
theorem run_tile1 (c : Dev nD) (i : grid0.Coords) (arg2 : Memref sig .tc .vmem S512x2048 .f32) (harg2 : arg2.IsWhole)
    (arg3 : Memref sig .tc .vmem S512x1 .f32) (harg3 : arg3.IsWhole) (h0 : ¬atTile0 i) (h1 : atTile1 i)
    (X : Vec F S512x2048 .f32) (Y : Vec F S512x1 .f32) (E : Set ℕ) (K : PUnit → sProp 𝕄) :
    iprop(owns (c : Thread nD τ) arg2 fullShare X ∗ owns (c : Thread nD τ) arg3 fullShare Y
        ∗ (iprop(owns (c : Thread nD τ) arg2 fullShare X ∗ owns (c : Thread nD τ) arg3 fullShare (k0_pay3 (k0_pay2 i X Y))) -∗ K ⟨⟩))
      ⊢ wp frame (wpE (defs₀ (F := F)) Variants.none c none) E (cc0__pool_kernel_body i arg2 harg2 arg3 harg3) K := by
  simp only [cc0__pool_kernel_body_eq_skeleton]; unfold cc0__pool_kernel_body_skel
  unfold owns
  iintro ⟨⟨%f0, %hf0, H0⟩, ⟨%f1, %hf1, H1⟩, Hk⟩
  obtain rfl := harg2.eq_unread hf0; obtain rfl := harg3.eq_unread hf1
  sl_exec (disch := first | exact h0 | exact h1)
  sl_step
  iapply Hk
  isplitl [H0]
  · iexists _; isplitr; · ipureintro; exact harg2.read_unread _
    iexact H0
  iexists _; isplitr
  swap; · iexact H1
  ipureintro
  rw [View.read_writes_eq_canon _ _ _ (fun y => ⟨_, List.mem_cons_self .., View.mem_set_unit_zero zeros2 inb_S512x1_S512x1_0_0 y⟩),
    View.canon_cons_unit_zero (S := S512x1) zeros2]
  sl_unfold_words
  simp only [View.readAt_eq_ld, harg2.read_unread, harg3.read_unread, View.ld_unit_zero (S := S512x2048) zeros2,
    View.ld_unit_zero (S := S512x1) zeros2, View.readCov_unit_zero (S := S512x1) _ zeros2]

/-! ## The unfetched columns do not reach the output -/

/-- Which lanes the body keeps: those whose position `lane + tile · 2048` is below 3136. -/
def keep (i : grid0.Coords) : IVec S512x2048 1 :=
  cmpi .slt (addi (iota .tc S512x2048 32 [1] iota_S512x2048_d1_w32)
    (broadcast S512x2048 (Scalar.muli (BitVec.ofNat 32 (i 1).val) 2048#32))) (broadcast S512x2048 3136#32)

/-- The input block with every lane that is not kept replaced by zero: what the body sums along the rows. -/
def masked (i : grid0.Coords) (x : Vec F S512x2048 .f32) : FVec F S512x2048 .f32 :=
  select (keep i) (shapeCast S512x2048 x shapeCasts_S512x2048_S512x2048) (broadcast S512x2048 (Scalar.ofBits .f32 0x00000000#32))

/-- The body's sum reads its input block through `masked` alone. -/
theorem pay2_masked (i : grid0.Coords) (x : Vec F S512x2048 .f32) (y : Vec F S512x1 .f32) :
    k0_pay2 i x y = addf (shapeCast S512x1 y shapeCasts_S512x1_S512x1)
      (shapeCast S512x1 (multiReduction .add [1] S512 (masked i x) 0x00000000#32 reduces_S512x2048_S512 (.inl rfl) rfl) shapeCasts_S512_S512x1) := rfl

/-- The keep bit of lane `j`, as one comparison of words. -/
theorem keep_apply (i : grid0.Coords) (j : S512x2048.Idx) :
    keep i j = IntOp.cmpi .slt (IntOp.addi (BitVec.ofNat 32 (j 1).val) (Scalar.muli (BitVec.ofNat 32 (i 1).val) 2048#32)) 3136#32 := by
  unfold keep
  show IntOp.cmpi .slt (IntOp.addi (iota .tc S512x2048 32 [1] iota_S512x2048_d1_w32 j) _) _ = _
  rw [iota_single_apply]; rfl

/-- A lane of the block read as a signed word, offset by 2048: no wrap. -/
theorem toInt_lane_add (n : ℕ) (hn : n < 2048) : (IntOp.addi (BitVec.ofNat 32 n) 2048#32).toInt = (n : ℤ) + 2048 := by
  unfold IntOp.addi
  rw [BitVec.toInt_eq_toNat_cond, BitVec.toNat_add, BitVec.toNat_ofNat]
  simp only [BitVec.toNat_ofNat, Nat.reducePow, Nat.reduceMod]
  split <;> omega

/-- The part of the input block the fetch moves, over the grid: all 512 rows; all 2048 columns at tile zero, the
    first 1088 at tile one; and the tile coordinate is the point's parity. -/
theorem moved_part : ∀ t : Fin cfg0.N, (cfg0.win 0).xsize (cfg0.grid.coords t) (0 : Fin 2) = 512
      ∧ (cfg0.win 0).xsize (cfg0.grid.coords t) (1 : Fin 2) = (if t.val % 2 = 0 then 2048 else 1088)
      ∧ ((grid0.coords t) (1 : Fin 2)).val = t.val % 2 :=
  (by decide +kernel : ∀ t : Fin grid0.N, win0_0.xsize (grid0.coords t) (0 : Fin 2) = 512
      ∧ win0_0.xsize (grid0.coords t) (1 : Fin 2) = (if t.val % 2 = 0 then 2048 else 1088)
      ∧ ((grid0.coords t) (1 : Fin 2)).val = t.val % 2)

/-- A lane the body keeps is a lane the fetch moved: at tile zero every lane is moved; at tile one a kept lane
    has `lane + 2048 < 3136`, so it is among the first 1088. -/
theorem moved_of_keep (t : Fin cfg0.N) (j : S512x2048.Idx) (hk : keep (grid0.coords t) j = 1#1) :
    (cfg0.win 0).moved (cfg0.grid.coords t) j = true := by
  rw [Window.moved_iff]
  obtain ⟨hx0, hx1, hc⟩ := moved_part t
  rw [keep_apply, IntOp.cmpi_slt, hc] at hk
  intro a
  match a with
  | ⟨0, _⟩ => exact lt_of_lt_of_eq (j 0).isLt hx0.symm
  | ⟨1, _⟩ =>
    show (j (1 : Fin 2)).val < (cfg0.win 0).xsize (cfg0.grid.coords t) (1 : Fin 2)
    rw [hx1]
    have hj : (j (1 : Fin 2)).val < 2048 := (j 1).isLt
    rcases Nat.mod_two_eq_zero_or_one t.val with h | h
    · rw [if_pos h]; exact hj
    · rw [if_neg (by omega)]
      rw [h, show Scalar.muli (BitVec.ofNat 32 1) 2048#32 = 2048#32 from by decide, toInt_lane_add _ hj] at hk
      have h3136 : (3136#32 : BitVec 32).toInt = 3136 := by decide
      rw [h3136] at hk
      omega

/-- What the body sums does not depend on what the buffer held where the fetch moved nothing: a lane there is not
    kept, and `select` takes the zero; a kept lane is a moved one, where both buffers hold the fetched block. -/
theorem masked_fill (t : Fin cfg0.N) (d d' : S512x2048.Idx → Elt F .f32)
    (g : ((cfg0.win 0).xblock (cfg0.grid.coords t)).Idx → Elt F .f32) :
    masked (grid0.coords t) ((cfg0.win 0).fill (cfg0.grid.coords t) d g)
      = masked (grid0.coords t) ((cfg0.win 0).fill (cfg0.grid.coords t) d' g) := by
  funext j
  unfold masked
  rw [shapeCast_self, shapeCast_self]
  show Scalar.select (keep (grid0.coords t) j) ((cfg0.win 0).fill (cfg0.grid.coords t) d g j) _
    = Scalar.select (keep (grid0.coords t) j) ((cfg0.win 0).fill (cfg0.grid.coords t) d' g j) _
  unfold Scalar.select
  by_cases hk : keep (grid0.coords t) j = 1
  · rw [if_pos hk, if_pos hk]
    have hm := moved_of_keep t j hk
    unfold Window.fill; rw [dif_pos hm, dif_pos hm]
  · rw [if_neg hk, if_neg hk]

/-- So the sum does not either. -/
theorem pay2_fill (t : Fin cfg0.N) (d d' : S512x2048.Idx → Elt F .f32)
    (g : ((cfg0.win 0).xblock (cfg0.grid.coords t)).Idx → Elt F .f32) (y : Vec F S512x1 .f32) :
    k0_pay2 (grid0.coords t) ((cfg0.win 0).fill (cfg0.grid.coords t) d g) y
      = k0_pay2 (grid0.coords t) ((cfg0.win 0).fill (cfg0.grid.coords t) d' g) y := by
  rw [pay2_masked, pay2_masked, masked_fill t d d' g]

/-! ## The body obligation -/

/-- What the body is called with at point `t`: the invariant, nothing owed, and each window's current buffer at what it
    then holds, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns: the input buffer stated on its fetched part, the output buffer exactly. -/
def bodyPost (c : Dev nD) (t : Fin cfg0.N) : sProp 𝕄 :=
  iprop((dat0 V c).Φ t.succ ∗ (dat0 V c).owesAt () t.succ
    ∗ (∃ d, owns (c : Thread nD τ) (st0_0 t) fullShare
        ((cfg0.win 0).fill (cfg0.grid.coords t) d ((cfg0.win 0).cut (cfg0.grid.coords t) ((dat0 V c).after 0 t))))
    ∗ owns (c : Thread nD τ) (st0_1 t) fullShare ((dat0 V c).after 1 t))

set_option maxHeartbeats 800000 in
/-- The body at any point. The input buffer arrives just fetched: its block where the fetch moved it, some `d`
    elsewhere. At an even point (tile zero) the output buffer is fresh and the body leaves the first partial sums
    there; at an odd point (tile one) it holds the even point's sums and the body leaves the scaled total. Either way
    the sums are those of the zero-filled block (`pay2_fill`), and the input buffer, untouched, is its block
    filled out with the same `d`. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  rw [show (dat0 V c).Φ t.succ = (dat0 V c).Φ t.castSucc from rfl,
    show (dat0 V c).owesAt () t.succ = (dat0 V c).owesAt () t.castSucc from rfl,
    after0_0, after0_1]
  have hcut : (cfg0.win 0).cut (cfg0.grid.coords t) (xfill V c t) = xblk V c t := (cfg0.win 0).cut_fill _ _ _
  rw [hcut]
  iintro ⟨HΦ, Ho, ⟨%d0, H0⟩, ⟨%d1, H1⟩⟩
  rw [before0_0 V c t d0]
  by_cases h0 : t.val % 2 = 0
  · have e : poolAfter V c t
        = k0_pay2 (grid0.coords t) ((cfg0.win 0).fill (cfg0.grid.coords t) d0 (xblk V c t)) (k0_pay1 (F := F)) := by
      unfold poolAfter accA xfill; rw [if_pos h0]; exact pay2_fill t _ d0 (xblk V c t) _
    rw [before0_1_even V c t h0 d1, e]
    iapply (run_tile0 (F := F) c (grid0.coords t) _ _ _ _ ((atTile0_iff t).mpr h0)
      (fun h => by have := (atTile1_iff t).mp h; omega)
      ((cfg0.win 0).fill (cfg0.grid.coords t) d0 (xblk V c t)) Set.univ _)
    isplitl [H0]; · iexact H0
    isplitl [H1]; · iexists d1; iexact H1
    iintro ⟨H0, H1⟩
    isplitl [HΦ]; · iexact HΦ
    isplitl [Ho]; · iexact Ho
    isplitl [H0]; · iexists d0; iexact H0
    iexact H1
  · have h1 : t.val % 2 = 1 := by omega
    have e : poolAfter V c t
        = k0_pay3 (k0_pay2 (grid0.coords t) ((cfg0.win 0).fill (cfg0.grid.coords t) d0 (xblk V c t))
            (accA V c ⟨t.val - 1, Nat.lt_of_le_of_lt (Nat.sub_le _ _) t.isLt⟩)) := by
      unfold poolAfter accB xfill; rw [if_neg h0]; exact congrArg k0_pay3 (pay2_fill t _ d0 (xblk V c t) _)
    rw [before0_1_odd V c t h1 d1, e]
    iapply (run_tile1 (F := F) c (grid0.coords t) _ _ _ _ (fun h => h0 ((atTile0_iff t).mp h))
      ((atTile1_iff t).mpr h1)
      ((cfg0.win 0).fill (cfg0.grid.coords t) d0 (xblk V c t)) _ Set.univ _)
    isplitl [H0]; · iexact H0
    isplitl [H1]; · iexact H1
    iintro ⟨H0, H1⟩
    isplitl [HΦ]; · iexact HΦ
    isplitl [Ho]; · iexact Ho
    isplitl [H0]; · iexists d0; iexact H0
    iexact H1

/-- The body obligation in the loose form: the input window is stated on its fetched part only. -/
theorem body_obligation0 (c : Dev nD) :
    BodyObligationLoose (dat0 (F := F) V c) (defs₀ (F := F)) Variants.none () Set.univ := fun t => by
  rw [bigSep_W0, bigSep_W0]
  exact sound_body V c t

end Cert.ReferenceIdeal.Pool

end
-- ==== Proof.RefMlp.lean ====
/-
  The reference's second call, the two small affine maps, as a pipeline region: one point, every operand whole
  in its staging buffer, one whole store of the result. What the output buffer holds after the body is the
  body's one payload of the five input blocks.
-/
import proofs.«139969_g2000108762910826_pallasbulk_11_2_alg».proof.Proof.Gen.ReferenceIdeal.Launch
import proofs.«139969_g2000108762910826_pallasbulk_11_2_alg».proof.Proof.Gen.ReferenceIdeal.Skeleton
import proofs.«139969_g2000108762910826_pallasbulk_11_2_alg».proof.Proof.Gen.ReferenceIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.ReferenceIdeal.Mlp

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at the one point: the whole array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The one store's rectangle: the whole result buffer. -/
abbrev rOut : Rect S64x1 := Rect.unit (s := S64x1) ![0, 0] S64x1.size inb_S64x1_S64x1_0_0

/-- The result buffer after the body, from the five input blocks. -/
def out1_5 (x0 : Vec F S64x256 .f32) (x1 : Vec F S256x256 .f32) (x2 : Vec F S1x256 .f32) (x3 : Vec F S256x1 .f32)
    (x4 : Vec F S1x1 .f32) : Vec F S64x1 .f32 :=
  View.canon [⟨rOut, k1_pay1 x0 x1 x2 x3 x4⟩]

/-- The region's proof data on core `c`: the arrays as the region finds them; after the body each input buffer at
    its block and the result buffer at `out1_5` of them; the invariant the scoped rest and the generator register;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by
  dsimp only [dat1]

/-! ## What the body finds in the input buffers

The call has no grid, so its one point is the first, and every input is fetched there. A fetch of an uncut window
fills the whole staging buffer, so each of the five input buffers holds exactly its array as the region found it. -/

/-- What the body leaves in an input buffer: the block it found. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]

/-- The pooled features' buffer holds the pooled features. -/
theorem found_pooled (c : Dev nD) (t : Fin cfg1.N) (d) : (dat1 V c).before 0 t d = iblk1 V c 0 t := by
  unfold Dat.before; rw [if_pos (fetch1_0 t)]
  unfold Dat.fetched Dat.blockOf iblk1; rw [A_eq1]; try rfl
/-- The first layer's weights. -/
theorem found_w1 (c : Dev nD) (t : Fin cfg1.N) (d) : (dat1 V c).before 1 t d = iblk1 V c 1 t := by
  unfold Dat.before; rw [if_pos (fetch1_1 t)]
  unfold Dat.fetched Dat.blockOf iblk1; rw [A_eq1]; try rfl
/-- The first layer's bias row. -/
theorem found_b1 (c : Dev nD) (t : Fin cfg1.N) (d) : (dat1 V c).before 2 t d = iblk1 V c 2 t := by
  unfold Dat.before; rw [if_pos (fetch1_2 t)]
  unfold Dat.fetched Dat.blockOf iblk1; rw [A_eq1]; try rfl
/-- The second layer's weight column. -/
theorem found_w2 (c : Dev nD) (t : Fin cfg1.N) (d) : (dat1 V c).before 3 t d = iblk1 V c 3 t := by
  unfold Dat.before; rw [if_pos (fetch1_3 t)]
  unfold Dat.fetched Dat.blockOf iblk1; rw [A_eq1]; try rfl
/-- The second layer's bias. -/
theorem found_b2 (c : Dev nD) (t : Fin cfg1.N) (d) : (dat1 V c).before 4 t d = iblk1 V c 4 t := by
  unfold Dat.before; rw [if_pos (fetch1_4 t)]
  unfold Dat.fetched Dat.blockOf iblk1; rw [A_eq1]; try rfl

/-! ## The body's run -/

/-- The loads and the store sit at the origin of their rank-two buffers. -/
theorem origin2 : (![0, 0] : Fin 2 → ℕ) = fun _ => 0 := by
  funext a; fin_cases a <;> rfl

/-- The one store fills the whole result buffer. -/
theorem rOut_covers (p : Vec F S64x1 .f32) (y : S64x1.Idx) :
    ∃ pc ∈ ([⟨rOut, p⟩] : List (View.Piece (Elt F) S64x1 .f32)), y ∈ pc.1.set :=
  View.cover_of_tiled [⟨rOut, p⟩] S64x1.size (by rfl) y

set_option maxHeartbeats 1000000 in
/-- On whole staging memrefs, the five inputs' at contents `x0 … x4` and the result's at anything, the body runs to
    a state with the inputs' untouched and the result's at the payload of `x0 … x4`: six whole loads (the last, of
    the result buffer, unused), then one store that overwrites all of the result buffer. -/
theorem mlp_run (c : Dev nD) (E : Set ℕ)
    (a0 : Memref sig .tc .vmem S64x256 .f32) (h0 : a0.IsWhole) (a1 : Memref sig .tc .vmem S256x256 .f32) (h1 : a1.IsWhole)
    (a2 : Memref sig .tc .vmem S1x256 .f32) (h2 : a2.IsWhole) (a3 : Memref sig .tc .vmem S256x1 .f32) (h3 : a3.IsWhole)
    (a4 : Memref sig .tc .vmem S1x1 .f32) (h4 : a4.IsWhole) (a5 : Memref sig .tc .vmem S64x1 .f32) (h5 : a5.IsWhole)
    (x0 : Vec F S64x256 .f32) (x1 : Vec F S256x256 .f32) (x2 : Vec F S1x256 .f32) (x3 : Vec F S256x1 .f32)
    (x4 : Vec F S1x1 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (out1_5 x0 x1 x2 x3 x4)) -∗ K ⟨⟩))
      ⊢ wp frame (wpE (defs₀ (F := F)) Variants.none c none) E (cc1__mlp_kernel a0 h0 a1 h1 a2 h2 a3 h3 a4 h4 a5 h5) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  -- the store covers the buffer, so what is read back is the stored payload; each load was of a whole buffer
  refine (View.read_writes_eq_canon _ _ _ (rOut_covers _)).trans ?_
  unfold out1_5
  rw [View.readAt_eq_ld, View.readAt_eq_ld, View.readAt_eq_ld, View.readAt_eq_ld, View.readAt_eq_ld,
    View.ld_unit_zero (S := S64x256) origin2, View.ld_unit_zero (S := S256x256) origin2,
    View.ld_unit_zero (S := S1x256) origin2, View.ld_unit_zero (S := S256x1) origin2,
    View.ld_unit_zero (S := S1x1) origin2]

/-! ## The body obligation -/

/-- What the body is handed at the one point: the invariant, what the core owes, and the six current staging
    buffers, each at what the pipeline left in it. -/
def mlpPre (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it hands back: the same invariant and debts, and each buffer at what the proof data say the body leaves. -/
def mlpPost (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at the point: the input buffers hold the five arrays, so `mlp_run` applies at them; the invariant and
    the debts are not touched and are the same before and after. -/
theorem mlp_body (c : Dev nD) (t : Fin cfg1.N) :
    mlpPre V c t ⊢ wp frame (wpE (defs₀ (F := F)) Variants.none c none) Set.univ (bodyAt1 t) (fun _ => mlpPost V c t) := by
  unfold mlpPre mlpPost bodyAt1
  simp only [found_pooled, found_w1, found_b1, found_w2, found_b2]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (mlp_run c Set.univ _ _ _ _ _ _ _ _ _ _ _ _ (iblk1 V c 0 t) (iblk1 V c 1 t) (iblk1 V c 2 t) (iblk1 V c 3 t)
    (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at the one point. -/
theorem body_obligation1 (c : Dev nD) :
    BodyObligation (dat1 (F := F) V c) (defs₀ (F := F)) Variants.none () Set.univ := fun t => by
  rw [bigSep_W1, bigSep_W1]
  exact mlp_body V c t

end Cert.ReferenceIdeal.Mlp

end
-- ==== Proof.RefRun.lean ====
/-
  The reference's run as a whole: its two pipeline regions tied into the program's conditional frame.

  Between two items of the program every unscoped buffer of a core is held whole at a named valuation. The first
  region is entered at the launch contents after the first reshape and leaves its output array at what its
  write-backs wrote; the three reshapes after it are a pure function of that; the second region is entered there
  and leaves the result array at what its one write-back wrote. Beside the buffers a core carries only its
  generator register, at some state, and the fact that it owes nothing.
-/
import proofs.«139969_g2000108762910826_pallasbulk_11_2_alg».proof.Proof.RefRunCond
import proofs.«139969_g2000108762910826_pallasbulk_11_2_alg».proof.Proof.RefPool
import proofs.«139969_g2000108762910826_pallasbulk_11_2_alg».proof.Proof.RefMlp
import Idealize.ShloMosaic.Lib.Pipeline.FrameBody
import Idealize.ShloMosaic.Lib.Pipeline.RegionsLoop
import Idealize.ShloMosaic.Lib.Pipeline.FrameSuffix

set_option maxRecDepth 16384

noncomputable section

namespace Cert.ReferenceIdeal.Run

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- What the first region is entered at, read at a TensorCore reference. -/
abbrev U1 (c : Dev nD) (b : Ref sig .tc) : Buf (Elt F) ((c : Thread nD τ).loc b) := V1 m c b

/-- After the first region: its arrays at what the pipeline leaves, every other buffer as entered. -/
def X2 (c : Dev nD) : Valuation τ sig (Elt F) :=
  Pipeline.withArrays spec0 c (V1 m c) fun w => (Pool.dat0 (U1 m) c).arrAt w cfg0.N

/-- The unknowns of the generated valuations, as far as the second region's entry needs them. -/
abbrev outsA : Outs (F := F) := fun _ r c => X2 m c (Proc.devRef .tc r)

/-- What the second region is entered at, read at a TensorCore reference. -/
abbrev U3 (c : Dev nD) (b : Ref sig .tc) : Buf (Elt F) ((c : Thread nD τ).loc b) := V3 m (outsA m) c b

/-- After the second region: its arrays at what the pipeline leaves, every other buffer as entered. -/
def X4 (c : Dev nD) : Valuation τ sig (Elt F) :=
  Pipeline.withArrays spec1 c (V3 m (outsA m) c) fun w => (Mlp.dat1 (U3 m) c).arrAt w cfg1.N

/-- What each region leaves in the buffer it may change. -/
def outs : Outs (F := F) := fun j r c => if j = 2 then X2 m c (Proc.devRef .tc r) else X4 m c (Proc.devRef .tc r)

theorem outs_two (c : Dev nD) : outs m 2 main_v1 c = (Pool.dat0 (U1 m) c).arrAt 1 cfg0.N := by
  unfold outs; rw [if_pos rfl]; unfold X2
  exact Pipeline.withArrays_arr spec0 launch0.win.arr_inj c _ _ 1
theorem outs_four (c : Dev nD) : outs m 4 main_v5 c = (Mlp.dat1 (U3 m) c).arrAt 5 cfg1.N := by
  unfold outs; rw [if_neg (by decide)]; unfold X4
  exact Pipeline.withArrays_arr spec1 launch1.win.arr_inj c _ _ 5

/-- The second region's entry does not depend on what it leaves itself. -/
theorem V3_outs (c : Dev nD) : V3 m (outs m) c = V3 m (outsA m) c := rfl

/-- The valuations after each region, read at a TensorCore reference. -/
abbrev U2 (c : Dev nD) (b : Ref sig .tc) : Buf (Elt F) ((c : Thread nD τ).loc b) := V2 m (outs m) c b
abbrev U4 (c : Dev nD) (b : Ref sig .tc) : Buf (Elt F) ((c : Thread nD τ).loc b) := V4 m (outs m) c b

/-! ## The proof data family and what rides beside the buffers -/

/-- Every pipeline's proof data, each at its region's entry contents. -/
def pdats : (p : Fin 2) → (c : Dev nD) → Dat τ (Elt F) Unit ℕ (UR sig nD τ) ℕ (cfgs p) c
  | ⟨0, _⟩ => fun c => Pool.dat0 (U1 m) c
  | ⟨1, _⟩ => fun c => Mlp.dat1 (U3 m) c

abbrev 𝒱₀ : Variants := Variants.none
abbrev L : GSem nD τ sig → Finset Unit := fun _ => ∅
abbrev lv : GSem nD τ sig → Unit → ℕ := fun _ _ => 0

/-- Beside the buffers: the generator register at some state, and nothing owed. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-! ## What each region's arrays hold at its exit -/

theorem hF0 (c : Dev nD) (w : Fin cfg0.W) : (pdats m 0 c).arrAt w cfg0.N = U2 m c (Pipeline.arrRef spec0 w) := by
  match w with
  | ⟨0, _⟩ =>
    show (Pool.dat0 (U1 m) c).arrAt 0 cfg0.N = V2 m (outs m) c main_v0
    rw [V2_of m (outs m) c main_v0 (by decide)]
    exact ((Pool.dat0 (U1 m) c).arrAt_in 0 rfl _).trans (Pool.A_eq0 (U1 m) c 0)
  | ⟨1, _⟩ =>
    show (Pool.dat0 (U1 m) c).arrAt 1 cfg0.N = V2 m (outs m) c main_v1
    simp only [V2, Function.update_self]
    exact (outs_two m c).symm
theorem hrest0 (c : Dev nD) : ∀ b, b ∉ Finset.univ.image (Pipeline.arrRef spec0) → U2 m c b = U1 m c b :=
  fun b hb => V2_of m (outs m) c b fun h => hb (Finset.mem_image.mpr ⟨1, Finset.mem_univ _,
    (show Pipeline.arrRef spec0 1 = main_v1 from rfl).trans (List.mem_singleton.mp h).symm⟩)
/-- An input array of the second region keeps its entry contents through the region. -/
theorem hF1_in (c : Dev nD) (w : Fin cfg1.W) (hin : (cfg1.win w).isOut = false) (r : Ref sig .tc) (hr : Pipeline.arrRef spec1 w = r)
    (hne : r ∉ ([main_v5] : List (Ref sig .tc))) : (pdats m 1 c).arrAt w cfg1.N = U4 m c (Pipeline.arrRef spec1 w) := by
  subst hr
  show (Mlp.dat1 (U3 m) c).arrAt w cfg1.N = V4 m (outs m) c (Pipeline.arrRef spec1 w)
  rw [V4_of m (outs m) c _ hne]
  exact ((Mlp.dat1 (U3 m) c).arrAt_in w hin _).trans (Mlp.A_eq1 (U3 m) c w)
theorem hF1 (c : Dev nD) (w : Fin cfg1.W) : (pdats m 1 c).arrAt w cfg1.N = U4 m c (Pipeline.arrRef spec1 w) := by
  match w with
  | ⟨0, _⟩ => exact hF1_in m c 0 rfl main_v2 rfl (by decide)
  | ⟨1, _⟩ => exact hF1_in m c 1 rfl main_arg1 rfl (by decide)
  | ⟨2, _⟩ => exact hF1_in m c 2 rfl main_v3 rfl (by decide)
  | ⟨3, _⟩ => exact hF1_in m c 3 rfl main_arg3 rfl (by decide)
  | ⟨4, _⟩ => exact hF1_in m c 4 rfl main_v4 rfl (by decide)
  | ⟨5, _⟩ =>
    show (Mlp.dat1 (U3 m) c).arrAt 5 cfg1.N = V4 m (outs m) c main_v5
    simp only [V4, Function.update_self]
    exact (outs_four m c).symm
theorem hrest1 (c : Dev nD) : ∀ b, b ∉ Finset.univ.image (Pipeline.arrRef spec1) → U4 m c b = U3 m c b :=
  fun b hb => V4_of m (outs m) c b fun h => hb (Finset.mem_image.mpr ⟨5, Finset.mem_univ _,
    (show Pipeline.arrRef spec1 5 = main_v5 from rfl).trans (List.mem_singleton.mp h).symm⟩)

/-! ## The regions as segments -/

set_option backward.isDefEq.respectTransparency.types false in
/-- The first region over the thread state: entered with every unscoped buffer at the first valuation, left at the
    second. Its arrays are split out of the unscoped buffers and put back at their exit contents; the generator
    register goes into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := Pool.body_obligation0 (U1 m) c
  hwaits := Pipeline.hwaits_of_owed_zero _ _ _ _ L lv 0 fun _ _ => rfl
  pre c := iprop(StableHlo.held (c : Thread nD τ) (Pipeline.ucRefs τ sig) (V1 m c) ∗ E 0 c)
  post c := iprop(StableHlo.held (c : Thread nD τ) (Pipeline.ucRefs τ sig) (V2 m (outs m) c) ∗ E 1 c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered with every unscoped buffer at the third valuation, left at the
    fourth, in the same way. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Mlp.body_obligation1 (U3 m) c).loose
  hwaits := Pipeline.hwaits_of_owed_zero _ _ _ _ L lv 1 fun _ _ => rfl
  pre c := iprop(StableHlo.held (c : Thread nD τ) (Pipeline.ucRefs τ sig) (V3 m (outsA m) c) ∗ E 1 c)
  post c := iprop(StableHlo.held (c : Thread nD τ) (Pipeline.ucRefs τ sig) (V4 m (outs m) c) ∗ E 2 c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

variable (ρ : Dev nD → PrngReg)

set_option backward.isDefEq.respectTransparency.types false in
/-- Every weakly fair execution of the reference from memory `m` with zero counters terminates, leaves the result
    buffer at what the second region's write-back wrote and every argument as launched. -/
theorem run_ref : θ_run defs (onTc (τ := τ) (main (F := F))) ⟨m, fun _ => 0, ρ⟩ (fun r => ∀ c : Dev nD,
      r.2.mem ((c.tc : Thread nD τ).loc main_v5) = outs m 4 main_v5 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  GenP.run_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := E)
    (hE0 := by
      refine Pipeline.initEach L lv fun c => ?_
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun _ => .rfl) (hpost0 := fun _ => .rfl)
    (R1 := reg1 m) (hpre1 := fun _ => .rfl) (hpost1 := fun _ => .rfl)

end Cert.ReferenceIdeal.Run

end
-- ==== Proof.RefPoolValue.lean ====
/-
  What the pooling region leaves in its output array, at the ideal values: row `r` holds the sum of that row's
  3136 positions times the shared scale. Tile 0 contributes the first 2048 positions (its mask is everywhere
  true), tile 1 the remaining 1088 (its mask is true exactly there, and the other lanes contribute the zero they
  were replaced by); zero plus the two partial sums is the whole sum, and the blocks written back at the odd
  points tile the 16384 rows.
-/
import proofs.«139969_g2000108762910826_pallasbulk_11_2_alg».proof.Proof.RefPool
import proofs.«139969_g2000108762910826_pallasbulk_11_2_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.ReferenceIdeal.PoolValue

open Cert.ReferenceIdeal Cert.ReferenceIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-- Lane `l` of tile `q` sits at position `l + 2048 q`; the comparison bit says whether that is below 3136. -/
theorem lane_bit (q : Fin 2) (l : Fin 2048) :
    IntOp.cmpi .slt (IntOp.addi (BitVec.ofNat 32 l.val) (Scalar.muli (BitVec.ofNat 32 q.val) 2048#32)) 3136#32
      = if l.val + q.val * 2048 < 3136 then 1#1 else 0#1 := by
  revert q l
  decide +kernel

/-- The block a tile-0 point starts from is zero in every row. -/
theorem zero_block_at (p : Fin 512) : (k0_pay1 (F := Ideal)) (ix2 p (0 : Fin 1)) = 0 := by
  unfold k0_pay1
  show Ideal.ofBits .f32 0x00000000#32 = 0
  exact Ideal.ofBits_zero_f32

/-- The last step at a tile-1 point multiplies every row by the shared scale. -/
theorem scaled_at (v : Vec Ideal S512x1 .f32) (p : Fin 512) :
    k0_pay3 v (ix2 p (0 : Fin 1)) = v (ix2 p (0 : Fin 1)) * Cert.Alpha.scale := by
  unfold k0_pay3
  rw [shapeCast_self]
  rfl

/-- Inserting lane `l` into the row index `p` gives the block index `(p, l)`. -/
theorem lift_row (p : Fin 512) (l : Fin 2048) :
    reduces_S512x2048_S512.lift (ix1 p) l = ix2 p l := by
  funext a
  match a with
  | ⟨0, _⟩ => exact Fin.ext rfl
  | ⟨1, _⟩ => exact Fin.ext rfl

/-- The accumulation step at tile `i 1`: to row `p` of what was there it adds the sum, over the 2048 lanes, of the
    input block's row `p` with every lane whose position `l + 2048 (i 1)` is not below 3136 replaced by zero. -/
theorem masked_rowsum_at (i : grid0.Coords) (x : Vec Ideal S512x2048 .f32) (prev : Vec Ideal S512x1 .f32) (p : Fin 512) :
    k0_pay2 i x prev (ix2 p (0 : Fin 1))
      = prev (ix2 p (0 : Fin 1)) + ∑ l : Fin 2048, (if l.val + (i 1).val * 2048 < 3136 then x (ix2 p l) else 0) := by
  unfold k0_pay2
  refine (addf_apply _ _ _).trans ?_
  refine congrArg₂ (· + ·) (congrFun (shapeCast_self prev _) _) ?_
  refine (shapeCast_apply _ _ (ix2 p (0 : Fin 1)) (ix1 p) ?_).trans ?_
  · rw [Shape.rowMajor_val_one, Shape.rowMajor_val_two]
    show p.val = p.val * 1 + 0
    omega
  refine (Ideal.multiReduction_add_single _ 0x00000000#32 reduces_S512x2048_S512 (.inl rfl) rfl (ix1 p)).trans ?_
  refine Finset.sum_congr rfl fun l _ => ?_
  rw [lift_row p l]
  refine (select_apply _ _ _ _).trans ?_
  have hbit : cmpi CmpIPredicate.slt (addi (iota Kind.tc S512x2048 32 [1] iota_S512x2048_d1_w32)
        (broadcast S512x2048 (Scalar.muli (BitVec.ofNat 32 (i 1).val) 2048#32))) (broadcast S512x2048 3136#32) (ix2 p l)
      = if l.val + (i 1).val * 2048 < 3136 then 1#1 else 0#1 := by
    show IntOp.cmpi .slt (IntOp.addi (iota Kind.tc S512x2048 32 [1] iota_S512x2048_d1_w32 (ix2 p l))
      (Scalar.muli (BitVec.ofNat 32 (i 1).val) 2048#32)) 3136#32 = _
    rw [iota_single_apply]
    exact lane_bit (i 1) l
  rw [hbit]
  by_cases hc : l.val + (i 1).val * 2048 < 3136
  · rw [if_pos hc, if_pos hc, select_one]
    exact congrFun (shapeCast_self x _) _
  · rw [if_neg hc, if_neg hc, select_zero]
    exact Ideal.ofBits_zero_f32

/-- Row `r` of the row-by-position array, continued by zero past its 3136 positions. -/
def rowExt (x2 : Cert.Alpha.SX2.Idx → EReal) (r : Fin 16384) (s : ℕ) : EReal :=
  if h : s < 3136 then x2 (ix2 r ⟨s, h⟩) else 0

/-- Zero, then the first 2048 positions, then the next 2048 of the continued row, is the sum of the row's 3136
    positions: the last 960 terms are the zeros of the continuation. -/
theorem rowExt_sum (x2 : Cert.Alpha.SX2.Idx → EReal) (r : Fin 16384) :
    (0 + ∑ l : Fin 2048, rowExt x2 r (l.val + 0 * 2048)) + ∑ l : Fin 2048, rowExt x2 r (l.val + 1 * 2048)
      = ∑ s : Fin 3136, x2 (ix2 r s) := by
  have hA : ∑ l : Fin 2048, rowExt x2 r (l.val + 0 * 2048) = ∑ l ∈ Finset.range 2048, rowExt x2 r l := by
    rw [← Fin.sum_univ_eq_sum_range (fun l => rowExt x2 r l) 2048]
    exact Finset.sum_congr rfl fun l _ => by rw [Nat.zero_mul, Nat.add_zero]
  have hB : ∑ l : Fin 2048, rowExt x2 r (l.val + 1 * 2048) = ∑ l ∈ Finset.range 2048, rowExt x2 r (2048 + l) := by
    rw [← Fin.sum_univ_eq_sum_range (fun l => rowExt x2 r (2048 + l)) 2048]
    exact Finset.sum_congr rfl fun l _ => by rw [Nat.one_mul, Nat.add_comm]
  have hC : ∑ s : Fin 3136, x2 (ix2 r s) = ∑ s ∈ Finset.range 3136, rowExt x2 r s := by
    rw [← Fin.sum_univ_eq_sum_range (fun s => rowExt x2 r s) 3136]
    exact Finset.sum_congr rfl fun s _ => by unfold rowExt; rw [dif_pos s.isLt]
  have hD : ∑ s ∈ Finset.range 960, rowExt x2 r (3136 + s) = 0 :=
    Finset.sum_eq_zero fun s _ => by unfold rowExt; rw [dif_neg (by omega)]
  rw [hA, hB, hC, zero_add, ← Finset.sum_range_add, show 2048 + 2048 = 3136 + 960 from rfl, Finset.sum_range_add, hD,
    add_zero]

/-! The grid's points and the two windows' index maps, decided once over the 64 points. -/

/-- Point `t` is row block `t / 2`, tile `t % 2`. -/
theorem point_coords : ∀ t : Fin cfg0.N, (grid0.coords t 0).val = t.val / 2 ∧ (grid0.coords t 1).val = t.val % 2 :=
  (by decide +kernel : ∀ t : Fin grid0.N, (grid0.coords t 0).val = t.val / 2 ∧ (grid0.coords t 1).val = t.val % 2)

/-- The input block at point `t` is block `(t / 2, t % 2)` of the array. -/
theorem in_index : ∀ t : Fin cfg0.N, win0_0.index t 0 = t.val / 2 ∧ win0_0.index t 1 = t.val % 2 :=
  (by decide +kernel : ∀ t : Fin grid0.N, win0_0.index t 0 = t.val / 2 ∧ win0_0.index t 1 = t.val % 2)

/-- Its part inside the array: all 512 rows; 2048 columns at tile 0, 1088 at tile 1. -/
theorem in_extent : ∀ t : Fin cfg0.N, win0_0.xsize (grid0.coords t) 0 = 512
    ∧ win0_0.xsize (grid0.coords t) 1 = (if t.val % 2 = 0 then 2048 else 1088) :=
  (by decide +kernel : ∀ t : Fin grid0.N, win0_0.xsize (grid0.coords t) 0 = 512
    ∧ win0_0.xsize (grid0.coords t) 1 = (if t.val % 2 = 0 then 2048 else 1088))

/-- The output block at point `t` is block `(t / 2, 0)` of the pooled column. -/
theorem out_index : ∀ t : Fin cfg0.N, win0_1.index t 0 = t.val / 2 ∧ win0_1.index t 1 = 0 :=
  (by decide +kernel : ∀ t : Fin grid0.N, win0_1.index t 0 = t.val / 2 ∧ win0_1.index t 1 = 0)

/-- A lane of the input buffer whose position is inside the array holds the array's entry there. -/
theorem input_lane_at (c : Dev nD) (t : Fin cfg0.N) (p : Fin 512) (l : Fin 2048)
    (hl : l.val + (t.val % 2) * 2048 < 3136) (hr : t.val / 2 * 512 + p.val < 16384) :
    Pool.xfill V c t (ix2 p l) = rowExt (V c main_v0) ⟨t.val / 2 * 512 + p.val, hr⟩ (l.val + (t.val % 2) * 2048) := by
  have hx := in_extent t
  have hi := in_index t
  have hm : ∀ a, ((ix2 p l : S512x2048.Idx) a).val < (cfg0.win 0).xsize (cfg0.grid.coords t) a := fun a => by
    match a with
    | ⟨0, _⟩ => show p.val < win0_0.xsize (grid0.coords t) 0; rw [hx.1]; exact p.isLt
    | ⟨1, _⟩ => show l.val < win0_0.xsize (grid0.coords t) 1; rw [hx.2]; split <;> omega
  unfold Pool.xfill
  unfold Window.fill
  rw [dif_pos (((cfg0.win 0).moved_iff _ _).mpr hm)]
  unfold Pool.xblk
  rw [View.read_apply]
  unfold rowExt
  rw [dif_pos hl]
  show V c main_v0 _ = V c main_v0 _
  congr 1
  funext a
  apply Fin.ext
  match a with
  | ⟨0, _⟩ => show win0_0.index t 0 * 512 + 1 * p.val = t.val / 2 * 512 + p.val; rw [hi.1]; omega
  | ⟨1, _⟩ => show win0_0.index t 1 * 2048 + 1 * l.val = l.val + (t.val % 2) * 2048; rw [hi.2]; omega

/-- One tile's masked row sum is the sum of 2048 consecutive positions of the continued row. -/
theorem tile_sum (c : Dev nD) (t : Fin cfg0.N) (p : Fin 512) (q : ℕ) (r : Fin 16384)
    (hq : t.val % 2 = q) (hr : t.val / 2 * 512 + p.val = r.val) :
    ∑ l : Fin 2048, (if l.val + (grid0.coords t 1).val * 2048 < 3136 then Pool.xfill V c t (ix2 p l) else 0)
      = ∑ l : Fin 2048, rowExt (V c main_v0) r (l.val + q * 2048) := by
  subst hq
  have hr' : t.val / 2 * 512 + p.val < 16384 := hr ▸ r.isLt
  obtain rfl : r = ⟨t.val / 2 * 512 + p.val, hr'⟩ := Fin.ext hr.symm
  refine Finset.sum_congr rfl fun l _ => ?_
  rw [(point_coords t).2]
  by_cases h : l.val + (t.val % 2) * 2048 < 3136
  · rw [if_pos h]; exact input_lane_at V c t p l h hr'
  · rw [if_neg h]; unfold rowExt; rw [dif_neg h]

/-- After an odd point the output buffer's row `p` holds the scaled sum of the array's row it belongs to. -/
theorem pooled_at (c : Dev nD) (t : Fin cfg0.N) (ht : t.val % 2 = 1) (p : Fin 512) (r : Fin 16384)
    (hr : t.val / 2 * 512 + p.val = r.val) :
    Pool.poolAfter V c t (ix2 p (0 : Fin 1)) = Cert.Alpha.poolRow (V c main_v0) r := by
  unfold Pool.poolAfter
  rw [if_neg (by omega)]
  unfold Pool.accB Pool.accA
  rw [scaled_at, masked_rowsum_at, masked_rowsum_at, zero_block_at]
  rw [tile_sum V c t p 1 r ht hr,
    tile_sum V c ⟨t.val - 1, Nat.lt_of_le_of_lt (Nat.sub_le _ _) t.isLt⟩ p 0 r
      (by show (t.val - 1) % 2 = 0; omega) (by show (t.val - 1) / 2 * 512 + p.val = r.val; omega)]
  unfold Cert.Alpha.poolRow
  rw [rowExt_sum]

/-- What a point leaves in the output buffer is written back whole (the output's blocks are never cut); at an
    odd point its row `p` is the scaled sum of the array's row. -/
theorem flushed_at (c : Dev nD) (t : Fin cfg0.N) (ht : t.val % 2 = 1) (p : Fin 512) (r : Fin 16384)
    (hr : t.val / 2 * 512 + p.val = r.val) :
    (Pool.dat0 (F := Ideal) V c).flushed 1 t (ix2 p (0 : Fin 1)) = Cert.Alpha.poolRow (V c main_v0) r :=
  (congrFun (Pool.after0_1 V c t) (ix2 p (0 : Fin 1))).trans (pooled_at V c t ht p r hr)

/-- Row `p` of the output block at point `t` is row `(t / 2) · 512 + p` of the pooled column. -/
theorem block_at (c : Dev nD) (t : Fin cfg0.N) (p : Fin 512) (r : Fin 16384)
    (hr : t.val / 2 * 512 + p.val = r.val) :
    ((cfg0.win 1).blk t).view.read (Elt Ideal) (Cert.Alpha.poolCol (V c main_v0)) (ix2 p (0 : Fin 1))
      = Cert.Alpha.poolRow (V c main_v0) r := by
  rw [View.read_apply]
  show Cert.Alpha.poolCol (V c main_v0) (((cfg0.win 1).blk t).view.emb (ix2 p (0 : Fin 1))) = _
  unfold Cert.Alpha.poolCol
  show Cert.Alpha.poolRow (V c main_v0) ((((cfg0.win 1).blk t).view.emb (ix2 p (0 : Fin 1))) 0) = _
  congr 1
  apply Fin.ext
  show win0_1.index t 0 * 512 + 1 * p.val = r.val
  rw [(out_index t).1]; omega

/-- What an odd point writes back is its block of the pooled column. -/
theorem flushed_is_block (c : Dev nD) (t : Fin cfg0.N) (hf : (cfg0.win 1).flush t = true) :
    (Pool.dat0 (F := Ideal) V c).flushed 1 t
      = ((cfg0.win 1).blk t).view.read (Elt Ideal) (Cert.Alpha.poolCol (V c main_v0)) := by
  have ht : t.val % 2 = 1 := (flush0_1 t).mp hf
  have hN : t.val < 64 := by have := t.isLt; have e : cfg0.N = 64 := N_0; omega
  funext y
  obtain ⟨p, q, rfl⟩ : ∃ (p : Fin 512) (q : Fin 1), y = ix2 p q := ⟨y 0, y 1, eq_ix2 y⟩
  obtain rfl : q = 0 := Subsingleton.elim _ _
  have hr : t.val / 2 * 512 + p.val < 16384 := by omega
  exact (flushed_at V c t ht p ⟨_, hr⟩ rfl).trans (block_at V c t p ⟨_, hr⟩ rfl).symm

/-- Row `i` of the pooled column lies in the block of the odd point of its row block. -/
theorem rows_covered (c : Dev nD) (i : ((cfg0.win 1).arr.view.loc (c.tc : Thread nD τ)).2.ty.Idx) :
    ∃ t : Fin cfg0.N, (cfg0.win 1).flush t = true ∧ i ∈ ((cfg0.win 1).blk t).view.set := by
  have h0 : (i 0 : Nat) < 16384 := (i 0).isLt
  have h1 : (i 1 : Nat) < 1 := (i 1).isLt
  have hN : grid0.N = 64 := N_0
  obtain ⟨t, ht⟩ : ∃ t : Fin cfg0.N, t.val = 2 * ((i 0 : Nat) / 512) + 1 :=
    ⟨⟨2 * ((i 0 : Nat) / 512) + 1, by show 2 * ((i 0 : Nat) / 512) + 1 < grid0.N; omega⟩, rfl⟩
  have ho := out_index t
  refine ⟨t, (flush0_1 t).mpr (by omega), ?_⟩
  show i ∈ ((View.whole main_v1).slice (win0_1.rect t)).set
  rw [View.set_slice_whole, Rect.mem_set_unit]
  intro a
  match a with
  | ⟨0, _⟩ =>
    show win0_1.index t 0 * 512 ≤ (i 0 : Nat) ∧ (i 0 : Nat) < win0_1.index t 0 * 512 + 512
    rw [ho.1]; omega
  | ⟨1, _⟩ =>
    show win0_1.index t 1 * 1 ≤ (i 1 : Nat) ∧ (i 1 : Nat) < win0_1.index t 1 * 1 + 1
    rw [ho.2]; omega

/-- After the last point the pooled array holds every row's scaled spatial sum. -/
theorem pool_final (c : Dev nD) :
    (Pool.dat0 (F := Ideal) V c).arrAt 1 cfg0.N = Cert.Alpha.poolCol (V c main_v0) :=
  (Pool.dat0 (F := Ideal) V c).arrAt_eq_of_cover 1 (Cert.Alpha.poolCol (V c main_v0)) (flushed_is_block V c) (rows_covered c)

end Cert.ReferenceIdeal.PoolValue

end
-- ==== Proof.RefMlpValue.lean ====
/-
  What the second region leaves in the result array, at the ideal values: per sample, the pooled row times the
  first weight matrix plus its bias, clamped at zero, times the second weight column plus its bias, through the
  logistic. Each matrix product into a zero accumulator is a plain sum over the contracted coordinate.
-/
import proofs.«139969_g2000108762910826_pallasbulk_11_2_alg».proof.Proof.RefMlp
import proofs.«139969_g2000108762910826_pallasbulk_11_2_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.ReferenceIdeal.MlpValue

open Cert.ReferenceIdeal Cert.ReferenceIdeal.Gen
open Idealize.ShloMosaic Idealize.ShloMosaic.TcCoe Idealize.ShloMosaic.ValueIdx
open Idealize.SL.Sem
open Idealize.ShloMosaic.Pipeline (Dat Cfg Window)
open scoped BigOperators

/-! ## The first product's operand indices, axis by axis

The first product contracts the pooled array's channel axis against the weight matrix's row axis. At an output
index and a contraction position, the left operand is read at (output row, position) and the right operand at
(position, output column). One lemma per axis, at the literal axes. -/

theorem hiddenLhs_row (i : S64x256.Idx) (q : dot_S64x256_S256x256_S64x256_1_0_0_1_n_n.contr.Idx) :
    (dot_S64x256_S256x256_S64x256_1_0_0_1_n_n.lhsIdx i q 0).val = (i 0).val := by
  unfold DotDims.lhsIdx
  rw [dif_neg (show ¬(0 : Fin S64x256.rank) ∈ dot_S64x256_S256x256_S64x256_1_0_0_1_n_n.lhsBatch by decide),
    dif_pos (show (0 : Fin S64x256.rank) ∈ dot_S64x256_S256x256_S64x256_1_0_0_1_n_n.lhsNonContracting by decide)]
  rfl

theorem hiddenLhs_col (i : S64x256.Idx) (q : dot_S64x256_S256x256_S64x256_1_0_0_1_n_n.contr.Idx) :
    (dot_S64x256_S256x256_S64x256_1_0_0_1_n_n.lhsIdx i q 1).val = (q ⟨0, by decide⟩).val :=
  dot_S64x256_S256x256_S64x256_1_0_0_1_n_n.lhsIdx_val_of_single rfl i q

theorem hiddenRhs_row (i : S64x256.Idx) (q : dot_S64x256_S256x256_S64x256_1_0_0_1_n_n.contr.Idx) :
    (dot_S64x256_S256x256_S64x256_1_0_0_1_n_n.rhsIdx i q 0).val = (q ⟨0, by decide⟩).val :=
  dot_S64x256_S256x256_S64x256_1_0_0_1_n_n.rhsIdx_val_of_single rfl i q

theorem hiddenRhs_col (i : S64x256.Idx) (q : dot_S64x256_S256x256_S64x256_1_0_0_1_n_n.contr.Idx) :
    (dot_S64x256_S256x256_S64x256_1_0_0_1_n_n.rhsIdx i q 1).val = (i 1).val := by
  unfold DotDims.rhsIdx
  rw [dif_neg (show ¬(1 : Fin S256x256.rank) ∈ dot_S64x256_S256x256_S64x256_1_0_0_1_n_n.rhsBatch by decide),
    dif_pos (show (1 : Fin S256x256.rank) ∈ dot_S64x256_S256x256_S64x256_1_0_0_1_n_n.rhsNonContracting by decide)]
  rfl

/-- The first product into a zero accumulator, at sample `n` and hidden unit `j`: the sum over the channel of
    pooled value times weight. -/
theorem hidden_apply (p : FVec Ideal S64x256 .f32) (w : FVec Ideal S256x256 .f32) (n : Fin 64) (j : Fin 256) :
    matmul dot_S64x256_S256x256_S64x256_1_0_0_1_n_n none p w (constant (F := Ideal) S64x256 .f32 0x00000000#32) (ix2 n j)
      = ∑ ch : Fin 256, p (ix2 n ch) * w (ix2 ch j) := by
  simp only [matmul]
  rw [Ideal.matmul_constant_zero_apply,
    ← Equiv.sum_comp (contrEquiv1 dot_S64x256_S256x256_S64x256_1_0_0_1_n_n 256 rfl rfl).symm]
  refine Finset.sum_congr rfl fun k _ => ?_
  have hk := contrEquiv1_symm_val dot_S64x256_S256x256_S64x256_1_0_0_1_n_n 256 rfl rfl k
  have el : dot_S64x256_S256x256_S64x256_1_0_0_1_n_n.lhsIdx (ix2 n j)
      ((contrEquiv1 dot_S64x256_S256x256_S64x256_1_0_0_1_n_n 256 rfl rfl).symm k) = ix2 n k :=
    funext fun a => Fin.ext (by
      match a with
      | ⟨0, _⟩ => exact hiddenLhs_row _ _
      | ⟨1, _⟩ => exact (hiddenLhs_col _ _).trans hk)
  have er : dot_S64x256_S256x256_S64x256_1_0_0_1_n_n.rhsIdx (ix2 n j)
      ((contrEquiv1 dot_S64x256_S256x256_S64x256_1_0_0_1_n_n 256 rfl rfl).symm k) = ix2 k j :=
    funext fun a => Fin.ext (by
      match a with
      | ⟨0, _⟩ => exact (hiddenRhs_row _ _).trans hk
      | ⟨1, _⟩ => exact hiddenRhs_col _ _)
  rw [el, er]

/-! ## The second product's operand indices

The second product contracts the hidden axis of the clamped activations against the row axis of the weight column. -/

theorem scoreLhs_row (i : S64x1.Idx) (q : dot_S64x256_S256x1_S64x1_1_0_0_1_n_n.contr.Idx) :
    (dot_S64x256_S256x1_S64x1_1_0_0_1_n_n.lhsIdx i q 0).val = (i 0).val := by
  unfold DotDims.lhsIdx
  rw [dif_neg (show ¬(0 : Fin S64x256.rank) ∈ dot_S64x256_S256x1_S64x1_1_0_0_1_n_n.lhsBatch by decide),
    dif_pos (show (0 : Fin S64x256.rank) ∈ dot_S64x256_S256x1_S64x1_1_0_0_1_n_n.lhsNonContracting by decide)]
  rfl

theorem scoreLhs_col (i : S64x1.Idx) (q : dot_S64x256_S256x1_S64x1_1_0_0_1_n_n.contr.Idx) :
    (dot_S64x256_S256x1_S64x1_1_0_0_1_n_n.lhsIdx i q 1).val = (q ⟨0, by decide⟩).val :=
  dot_S64x256_S256x1_S64x1_1_0_0_1_n_n.lhsIdx_val_of_single rfl i q

theorem scoreRhs_row (i : S64x1.Idx) (q : dot_S64x256_S256x1_S64x1_1_0_0_1_n_n.contr.Idx) :
    (dot_S64x256_S256x1_S64x1_1_0_0_1_n_n.rhsIdx i q 0).val = (q ⟨0, by decide⟩).val :=
  dot_S64x256_S256x1_S64x1_1_0_0_1_n_n.rhsIdx_val_of_single rfl i q

theorem scoreRhs_col (i : S64x1.Idx) (q : dot_S64x256_S256x1_S64x1_1_0_0_1_n_n.contr.Idx) :
    (dot_S64x256_S256x1_S64x1_1_0_0_1_n_n.rhsIdx i q 1).val = (i 1).val := by
  unfold DotDims.rhsIdx
  rw [dif_neg (show ¬(1 : Fin S256x1.rank) ∈ dot_S64x256_S256x1_S64x1_1_0_0_1_n_n.rhsBatch by decide),
    dif_pos (show (1 : Fin S256x1.rank) ∈ dot_S64x256_S256x1_S64x1_1_0_0_1_n_n.rhsNonContracting by decide)]
  rfl

/-- The second product into a zero accumulator, at sample `n` (its one column): the sum over the hidden unit of
    activation times weight. -/
theorem score_apply (h : FVec Ideal S64x256 .f32) (w : FVec Ideal S256x1 .f32) (n : Fin 64) :
    matmul dot_S64x256_S256x1_S64x1_1_0_0_1_n_n none h w (constant (F := Ideal) S64x1 .f32 0x00000000#32) (ix2 n (0 : Fin 1))
      = ∑ j : Fin 256, h (ix2 n j) * w (ix2 j (0 : Fin 1)) := by
  simp only [matmul]
  rw [Ideal.matmul_constant_zero_apply,
    ← Equiv.sum_comp (contrEquiv1 dot_S64x256_S256x1_S64x1_1_0_0_1_n_n 256 rfl rfl).symm]
  refine Finset.sum_congr rfl fun k _ => ?_
  have hk := contrEquiv1_symm_val dot_S64x256_S256x1_S64x1_1_0_0_1_n_n 256 rfl rfl k
  have el : dot_S64x256_S256x1_S64x1_1_0_0_1_n_n.lhsIdx (ix2 n (0 : Fin 1))
      ((contrEquiv1 dot_S64x256_S256x1_S64x1_1_0_0_1_n_n 256 rfl rfl).symm k) = ix2 n k :=
    funext fun a => Fin.ext (by
      match a with
      | ⟨0, _⟩ => exact scoreLhs_row _ _
      | ⟨1, _⟩ => exact (scoreLhs_col _ _).trans hk)
  have er : dot_S64x256_S256x1_S64x1_1_0_0_1_n_n.rhsIdx (ix2 n (0 : Fin 1))
      ((contrEquiv1 dot_S64x256_S256x1_S64x1_1_0_0_1_n_n 256 rfl rfl).symm k) = ix2 k (0 : Fin 1) :=
    funext fun a => Fin.ext (by
      match a with
      | ⟨0, _⟩ => exact (scoreRhs_row _ _).trans hk
      | ⟨1, _⟩ => exact scoreRhs_col _ _)
  rw [el, er]

/-! ## The stored value

The body stores one value: the casts to the same shape are the identity, each bias is one row repeated over the
samples, the zero word is the extended real zero, and the two products are the sums above. -/

/-- The stored value at sample `n`: both affine maps, the clamp at zero between them and the logistic, as sums. -/
theorem mlp_pay_apply (p : Vec Ideal S64x256 .f32) (w1 : Vec Ideal S256x256 .f32) (b1 : Vec Ideal S1x256 .f32)
    (w2 : Vec Ideal S256x1 .f32) (b2 : Vec Ideal S1x1 .f32) (n : Fin 64) :
    k1_pay1 (F := Ideal) p w1 b1 w2 b2 (ix2 n (0 : Fin 1))
      = Ideal.logistic ((∑ j : Fin 256, max ((∑ ch : Fin 256, p (ix2 n ch) * w1 (ix2 ch j)) + b1 (ix2 (0 : Fin 1) j)) 0
          * w2 (ix2 j (0 : Fin 1))) + b2 (ix2 (0 : Fin 1) (0 : Fin 1))) := by
  unfold k1_pay1
  rw [shapeCast_self, shapeCast_self, shapeCast_self]
  show Ideal.logistic (matmul dot_S64x256_S256x1_S64x1_1_0_0_1_n_n none _ w2 (constant (F := Ideal) S64x1 .f32 0x00000000#32) (ix2 n (0 : Fin 1))
    + broadcastTo S64x1 b2 broadcasts_S1x1_S64x1 (ix2 n (0 : Fin 1))) = _
  rw [score_apply, broadcastTo_1b_ab_apply]
  refine congrArg Ideal.logistic (congrArg (· + b2 (ix2 (0 : Fin 1) (0 : Fin 1))) (Finset.sum_congr rfl fun j _ => ?_))
  show max (matmul dot_S64x256_S256x256_S64x256_1_0_0_1_n_n none p w1 (constant (F := Ideal) S64x256 .f32 0x00000000#32) (ix2 n j)
    + broadcastTo S64x256 b1 broadcasts_S1x256_S64x256 (ix2 n j)) (Ideal.ofBits .f32 0x00000000#32) * w2 (ix2 j (0 : Fin 1)) = _
  rw [hidden_apply, broadcastTo_1b_ab_apply, Ideal.ofBits_zero_f32]

/-- The stored value as a whole is the row form of the chain on its five operands: an index of the result is a
    sample and the one column. -/
theorem mlp_pay_eq (p : Vec Ideal S64x256 .f32) (w1 : Vec Ideal S256x256 .f32) (b1 : Vec Ideal S1x256 .f32)
    (w2 : Vec Ideal S256x1 .f32) (b2 : Vec Ideal S1x1 .f32) :
    k1_pay1 (F := Ideal) p w1 b1 w2 b2 = Cert.Alpha.mlpRow p w1 b1 w2 b2 := by
  funext i
  obtain ⟨n, z, rfl⟩ : ∃ (n : Fin 64) (z : Fin 1), i = ix2 n z := ⟨i 0, i 1, eq_ix2 i⟩
  obtain rfl : z = 0 := Subsingleton.elim _ _
  exact mlp_pay_apply p w1 b1 w2 b2 n

variable (V : (c : Dev nD) → (b : Ref sig .tc) → Buf (Elt Ideal) ((c : Thread nD τ).loc b))

/-- The store's offsets are zero on both axes. -/
theorem mlpOrigin : (![0, 0] : Fin 2 → Nat) = fun _ => 0 :=
  funext fun a => match a with | ⟨0, _⟩ => rfl | ⟨1, _⟩ => rfl

/-! ## The one point's blocks

The region has no grid: every window's block index is zero and its block has the array's own sizes, so reading an
array through its block gives the array back. -/

theorem pooled_blk (c : Dev nD) (t : Fin cfg1.N) :
    (Mlp.iblk1 (F := Ideal) V c 0 t : S64x256.Idx → EReal) = V c main_v2 :=
  Memref.read_access_unit_zero (Elt Ideal) main_v2 (off := fun a => win1_0.index t a * S64x256.size a)
    (funext fun a => Nat.zero_mul _) _ (V c main_v2)

theorem weight1_blk (c : Dev nD) (t : Fin cfg1.N) :
    (Mlp.iblk1 (F := Ideal) V c 1 t : S256x256.Idx → EReal) = V c main_arg1 :=
  Memref.read_access_unit_zero (Elt Ideal) main_arg1 (off := fun a => win1_1.index t a * S256x256.size a)
    (funext fun a => Nat.zero_mul _) _ (V c main_arg1)

theorem bias1_blk (c : Dev nD) (t : Fin cfg1.N) :
    (Mlp.iblk1 (F := Ideal) V c 2 t : S1x256.Idx → EReal) = V c main_v3 :=
  Memref.read_access_unit_zero (Elt Ideal) main_v3 (off := fun a => win1_2.index t a * S1x256.size a)
    (funext fun a => Nat.zero_mul _) _ (V c main_v3)

theorem weight2_blk (c : Dev nD) (t : Fin cfg1.N) :
    (Mlp.iblk1 (F := Ideal) V c 3 t : S256x1.Idx → EReal) = V c main_arg3 :=
  Memref.read_access_unit_zero (Elt Ideal) main_arg3 (off := fun a => win1_3.index t a * S256x1.size a)
    (funext fun a => Nat.zero_mul _) _ (V c main_arg3)

theorem bias2_blk (c : Dev nD) (t : Fin cfg1.N) :
    (Mlp.iblk1 (F := Ideal) V c 4 t : S1x1.Idx → EReal) = V c main_v4 :=
  Memref.read_access_unit_zero (Elt Ideal) main_v4 (off := fun a => win1_4.index t a * S1x1.size a)
    (funext fun a => Nat.zero_mul _) _ (V c main_v4)

/-- What the one point writes back: the one store covers the result buffer, so the buffer holds the stored value,
    which is the row form on the five entry arrays; and that is the row form read through the block that is the
    whole result array. -/
theorem mlp_flushed (c : Dev nD) (t : Fin cfg1.N) :
    (Mlp.dat1 (F := Ideal) V c).flushed 5 t
      = ((cfg1.win 5).blk t).view.read (Elt Ideal)
          (Cert.Alpha.mlpRow (V c main_v2) (V c main_arg1) (V c main_v3) (V c main_arg3) (V c main_v4)) := by
  show (cfg1.win 5).cut (grid1.coords t) ((Mlp.dat1 (F := Ideal) V c).after 5 t) = _
  rw [Mlp.after1_5]
  unfold Mlp.out1_5
  rw [View.canon_unit_zero mlpOrigin]
  rw [pooled_blk, weight1_blk, bias1_blk, weight2_blk, bias2_blk, mlp_pay_eq]
  exact (Memref.read_access_unit_zero (Elt Ideal) main_v5 (off := fun a => win1_5.index t a * S64x1.size a)
    (funext fun a => Nat.zero_mul _) _ _).symm

/-- After its one point the result array holds the row form of the chain on the region's five entry arrays. -/
theorem mlp_final (c : Dev nD) :
    (Mlp.dat1 (F := Ideal) V c).arrAt 5 cfg1.N
      = Cert.Alpha.mlpRow (V c main_v2) (V c main_arg1) (V c main_v3) (V c main_arg3) (V c main_v4) := by
  refine (Mlp.dat1 (F := Ideal) V c).arrAt_eq_of_cover 5 _ (fun t _ => mlp_flushed V c t) fun i => ?_
  -- the one point writes back, and its block is the whole array: every index is under it
  refine ⟨t1_0, flush1_5 t1_0, ?_⟩
  show i ∈ ((View.whole main_v5).slice (win1_5.rect t1_0)).set
  rw [View.set_slice_whole]
  exact View.mem_set_unit_zero (off := fun a => win1_5.index t1_0 a * S64x1.size a)
    (funext fun a => Nat.zero_mul _) _ i

end Cert.ReferenceIdeal.MlpValue

end
-- ==== Proof.RefValue.lean ====
/-
  The reference's result as a function of the program's five arguments, at the ideal values.

  The second region is entered with: the pooled column re-laid as sample by channel, the first weight matrix as
  launched, the first bias as a row, the second weight column as launched, the second bias as a one-by-one
  matrix; every one of those is a reshape of an argument or of the first region's output, and a reshape
  keeps row-major positions. The first region is entered with the activations viewed row by position.
-/
import proofs.«139969_g2000108762910826_pallasbulk_11_2_alg».proof.Proof.RefRun
import proofs.«139969_g2000108762910826_pallasbulk_11_2_alg».proof.Proof.RefPoolValue
import proofs.«139969_g2000108762910826_pallasbulk_11_2_alg».proof.Proof.RefMlpValue
import proofs.«139969_g2000108762910826_pallasbulk_11_2_alg».proof.Proof.Spec
import Idealize.ShloMosaic.Lib.StableHlo.Run

set_option maxRecDepth 16384

noncomputable section

namespace Cert.ReferenceIdeal.RefValue

open Cert.ReferenceIdeal Cert.ReferenceIdeal.Gen Cert.ReferenceIdeal.Run
open Idealize.ShloMosaic Idealize.ShloMosaic.TcCoe Idealize.ShloMosaic.StableHlo
open Idealize.SL.Sem

variable (m : (ℓ : Loc nD τ sig) → Buf (Elt Ideal) ℓ)

/-- The first region finds the activations viewed row by position. -/
theorem entry_x (c : Dev nD) :
    U1 m c main_v0 = shapeCast S16384x3136 (m ((c.tc : Thread nD τ).loc main_arg0)) shapeCasts_S64x256x56x56_S16384x3136 := by
  show StableHlo.after hostOps0 (V0 m c) (Proc.devRef .tc main_v0) = _
  after_results
  rfl

/-- The second region finds the two weight arrays as launched: nothing before it writes an argument. -/
theorem entry_w1 (c : Dev nD) : U3 m c main_arg1 = m ((c.tc : Thread nD τ).loc main_arg1) :=
  (V3_of m (outsA m) c main_arg1 (by decide)).trans <| (V2_of m (outsA m) c main_arg1 (by decide)).trans <|
    (V1_of m c main_arg1 (by decide)).trans rfl
theorem entry_w2 (c : Dev nD) : U3 m c main_arg3 = m ((c.tc : Thread nD τ).loc main_arg3) :=
  (V3_of m (outsA m) c main_arg3 (by decide)).trans <| (V2_of m (outsA m) c main_arg3 (by decide)).trans <|
    (V1_of m c main_arg3 (by decide)).trans rfl

/-- It finds the first bias as a row and the second as a one-by-one matrix. -/
theorem entry_b1 (c : Dev nD) :
    U3 m c main_v3 = shapeCast S1x256 (m ((c.tc : Thread nD τ).loc main_arg2)) shapeCasts_S256_S1x256 := by
  show StableHlo.after hostOps1 (V2 m (outsA m) c) (Proc.devRef .tc main_v3) = _
  after_results
  rw [V2_of m (outsA m) c main_arg2 (by decide), V1_of m c main_arg2 (by decide)]
  rfl
theorem entry_b2 (c : Dev nD) :
    U3 m c main_v4 = shapeCast S1x1 (m ((c.tc : Thread nD τ).loc main_arg4)) shapeCasts_S1_S1x1 := by
  show StableHlo.after hostOps1 (V2 m (outsA m) c) (Proc.devRef .tc main_v4) = _
  after_results
  rw [V2_of m (outsA m) c main_arg4 (by decide), V1_of m c main_arg4 (by decide)]
  rfl

/-- It finds the first region's output column re-laid as sample by channel. -/
theorem entry_p (c : Dev nD) :
    U3 m c main_v2 = shapeCast S64x256 ((Pool.dat0 (U1 m) c).arrAt 1 cfg0.N) shapeCasts_S16384x1_S64x256 := by
  show StableHlo.after hostOps1 (V2 m (outsA m) c) (Proc.devRef .tc main_v2) = _
  after_results
  simp only [V2, Function.update_self]
  have e : outsA m 2 main_v1 c = (Pool.dat0 (U1 m) c).arrAt 1 cfg0.N := by
    show X2 m c (Proc.devRef .tc main_v1) = _
    unfold X2
    exact Pipeline.withArrays_arr spec0 launch0.win.arr_inj c _ _ 1
  rw [e]
  rfl

/-- The reference's result: the row form of the chain on the pooled column of the row-by-position view. -/
theorem result_eq (c : Dev nD) :
    outs m 4 main_v5 c
      = Cert.Alpha.mlpRow
          (shapeCast S64x256 (Cert.Alpha.poolCol
            (shapeCast S16384x3136 (m ((c.tc : Thread nD τ).loc main_arg0)) shapeCasts_S64x256x56x56_S16384x3136))
            shapeCasts_S16384x1_S64x256)
          (m ((c.tc : Thread nD τ).loc main_arg1))
          (shapeCast S1x256 (m ((c.tc : Thread nD τ).loc main_arg2)) shapeCasts_S256_S1x256)
          (m ((c.tc : Thread nD τ).loc main_arg3))
          (shapeCast S1x1 (m ((c.tc : Thread nD τ).loc main_arg4)) shapeCasts_S1_S1x1) := by
  rw [outs_four m c, MlpValue.mlp_final (U3 m) c, entry_p m c, PoolValue.pool_final (U1 m) c, entry_x m c,
    entry_w1 m c, entry_w2 m c, entry_b1 m c, entry_b2 m c]

end Cert.ReferenceIdeal.RefValue

end
-- ==== Proof.lean ====
/-
  The claim: the kernel's program and the reference compute, for every sample, the same value on the extended reals.

  For sample `n` both average the 3136 spatial entries of each of the 256 channels — the sum times ONE shared
  scale, the same 32-bit pattern in both programs, so it is never evaluated —, map the 256 means through the first
  weight matrix and bias, clamp at zero, map through the second weight column and bias, and apply the logistic.
  The kernel does it in one call per sample on column vectors, contracting "weight times mean"; the reference
  in two calls: it sums the rows of the row-by-position view in two spatial tiles, replacing the positions past the
  array's end by zero, then contracts "mean times weight" for all samples at once. Zero plus the two partial
  sums is the whole sum (addition of extended reals is a commutative monoid), and the two contractions agree
  because multiplication of extended reals commutes; no step distributes, cancels or moves a factor across a sum,
  so the finiteness of the inputs is never used.

  The kernel's and the idealized kernel's frames are the generated ones. The reference's run is its two
  pipeline regions tied into the program's conditional frame (Proof/RefRun.lean), read once for the frame and once
  with the result named (Proof/RefValue.lean). The idealization rewrote nothing, so `preserves` is trivial.
-/
import proofs.«139969_g2000108762910826_pallasbulk_11_2_alg».proof.Defs
import proofs.«139969_g2000108762910826_pallasbulk_11_2_alg».proof.Proof.Gen.Kernel
import proofs.«139969_g2000108762910826_pallasbulk_11_2_alg».proof.Proof.Gen.Kernel.Frame
import proofs.«139969_g2000108762910826_pallasbulk_11_2_alg».proof.Proof.Gen.KernelIdeal
import proofs.«139969_g2000108762910826_pallasbulk_11_2_alg».proof.Proof.Gen.KernelIdeal.Frame
import proofs.«139969_g2000108762910826_pallasbulk_11_2_alg».proof.Proof.Gen.ReferenceIdeal
import proofs.«139969_g2000108762910826_pallasbulk_11_2_alg».proof.Proof.Gen.Pre_finite_inputs
import proofs.«139969_g2000108762910826_pallasbulk_11_2_alg».proof.Proof.Spec
import proofs.«139969_g2000108762910826_pallasbulk_11_2_alg».proof.Proof.KernelValue
import proofs.«139969_g2000108762910826_pallasbulk_11_2_alg».proof.Proof.RefRun
import proofs.«139969_g2000108762910826_pallasbulk_11_2_alg».proof.Proof.RefValue
import Idealize.ShloMosaic.Adequacy
import Idealize.ShloMosaic.Init

noncomputable section

namespace Cert.Proof

open Idealize.ShloMosaic Idealize.SL.Sem

/-- The kernel as printed runs and keeps its arguments: its generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Run.run_ref (F := Ideal) m ρ)

/-- The idealization rewrote no operation. -/
theorem preserves : Cert.preserves_Kernel_KernelIdeal := trivial

/-- Run from memories that agree on the five arguments, the two programs end with the same result: the kernel's
    is the column form of the chain on the reshaped arguments, the reference's the row form on the pooled column,
    and the two forms are one function. -/
theorem algebraic : Cert.algebraic_KernelIdeal_ReferenceIdeal := by
  intro m ρ m' ρ' _ hagree
  refine ⟨fun c => Cert.KernelIdeal.KVal.result m c, Cert.KernelIdeal.KVal.run_value m ρ, ?_⟩
  refine (θ_run Cert.ReferenceIdeal.defs _ _).mono (fun _ h c => ⟨(h c).1.trans ?_, (h c).2⟩)
    (Cert.ReferenceIdeal.Run.run_ref (F := Ideal) m' ρ')
  rw [Cert.ReferenceIdeal.RefValue.result_eq m' c, (hagree c).1, (hagree c).2.1, (hagree c).2.2.1, (hagree c).2.2.2.1,
    (hagree c).2.2.2.2]
  exact (Cert.Alpha.alphaCol_eq_mlpRow _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
